-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x64 : Shape := ⟨3, ![8, 4096, 64]⟩
abbrev S8x4096x4096 : Shape := ⟨3, ![8, 4096, 4096]⟩
abbrev S64x64 : Shape := ⟨2, ![64, 64]⟩
abbrev S64 : Shape := ⟨1, ![64]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel
  bcast_S_S8x4096x4096 : S_.BroadcastsInDim S8x4096x4096 (![] : Fin 0 → Fin S8x4096x4096.rank)
  reducesTo_S8x4096x4096_S_d0_1_2 : S8x4096x4096.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S8x4096x64 .f32) (main_arg1 : FVec F S8x4096x4096 .f32) (main_arg2 : FVec F S64x64 .f32) (main_arg3 : FVec F S64 .f32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S8x4096x4096 .f32 := Host.absf main_arg1
  let main_cst_0 : FVec F S_ .f32 := constant S_ .f32 0x7F800000#32
  let main_v5 : FVec F S8x4096x4096 .f32 := broadcastInDim S8x4096x4096 ![] bcast_S_S8x4096x4096 main_cst_0
  let main_v6 : IVec S8x4096x4096 1 := cmpf .olt main_v4 main_v5
  let main_c_1 : IVec S_ 1 := constantI S_ 1 1#1
  let main_v7 : IVec S_ 1 := (fun x v => Host.reduce IntOp.andi x v reducesTo_S8x4096x4096_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S8x4096x64 : Shape := ⟨3, ![8, 4096, 64]⟩
abbrev S8x4096x4096 : Shape := ⟨3, ![8, 4096, 4096]⟩
abbrev S64x64 : Shape := ⟨2, ![64, 64]⟩
abbrev S64 : Shape := ⟨1, ![64]⟩
abbrev S1x4096x64 : Shape := ⟨3, ![1, 4096, 64]⟩
abbrev S4096x64 : Shape := ⟨2, ![4096, 64]⟩
abbrev S1x64 : Shape := ⟨2, ![1, 64]⟩
abbrev S1x2048x1024 : Shape := ⟨3, ![1, 2048, 1024]⟩
abbrev S1x1024x64 : Shape := ⟨3, ![1, 1024, 64]⟩
abbrev S1x2048x64 : Shape := ⟨3, ![1, 2048, 64]⟩
abbrev S2048x64 : Shape := ⟨2, ![2048, 64]⟩
abbrev S2048x1024 : Shape := ⟨2, ![2048, 1024]⟩
abbrev S1024x64 : Shape := ⟨2, ![1024, 64]⟩

abbrev nBuf : Space → Nat
  | .hbm => 7
  | .vmem => 13
  | .smem => 0
  | _ => 0

abbrev bufTy : (tb : Table) → Fin (tcTables nBuf tb) → BufTy
  | .hbm, ⟨0, _⟩ => ⟨S8x4096x64, .f32⟩
  | .hbm, ⟨1, _⟩ => ⟨S8x4096x4096, .f32⟩
  | .hbm, ⟨2, _⟩ => ⟨S64x64, .f32⟩
  | .hbm, ⟨3, _⟩ => ⟨S64, .f32⟩
  | .hbm, ⟨4, _⟩ => ⟨S8x4096x64, .bf16⟩
  | .hbm, ⟨5, _⟩ => ⟨S1x64, .f32⟩
  | .hbm, ⟨6, _⟩ => ⟨S8x4096x64, .f32⟩
  | .local _ .vmem, ⟨0, _⟩ => ⟨S1x4096x64, .f32⟩
  | .local _ .vmem, ⟨1, _⟩ => ⟨S1x4096x64, .f32⟩
  | .local _ .vmem, ⟨2, _⟩ => ⟨S64x64, .f32⟩
  | .local _ .vmem, ⟨3, _⟩ => ⟨S1x4096x64, .bf16⟩
  | .local _ .vmem, ⟨4, _⟩ => ⟨S1x4096x64, .bf16⟩
  | .local _ .vmem, ⟨5, _⟩ => ⟨S1x2048x1024, .f32⟩
  | .local _ .vmem, ⟨6, _⟩ => ⟨S1x2048x1024, .f32⟩
  | .local _ .vmem, ⟨7, _⟩ => ⟨S1x1024x64, .bf16⟩
  | .local _ .vmem, ⟨8, _⟩ => ⟨S1x1024x64, .bf16⟩
  | .local _ .vmem, ⟨9, _⟩ => ⟨S1x64, .f32⟩
  | .local _ .vmem, ⟨10, _⟩ => ⟨S1x2048x64, .f32⟩
  | .local _ .vmem, ⟨11, _⟩ => ⟨S1x2048x64, .f32⟩
  | .local _ .vmem, ⟨12, _⟩ => ⟨S2048x64, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 2, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S1x2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S4096x64_S1x4096x64 : S4096x64.ShapeCasts S1x4096x64
  packedbf16_S1x4096x64_S1x4096x64_0_0_0 : (Rect.unit (s := S1x4096x64) ![0, 0, 0] S1x4096x64.size inb_S1x4096x64_S1x4096x64_0_0_0).PackedRows (EltTy.packing .bf16)
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  dot_S4096x64_S64x64_S4096x64_1_0_0_1_n_n_wf : DotDims.WF S4096x64 S64x64 S4096x64 [1] [0] [0] [1] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S8x4096x64.size a
  hwx0_0 : ∀ i : grid0.Coords, EltTy.bits .f32 = 32 ∨ (Rect.block (s := S8x4096x64) S1x4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S8x4096x64.size a
  hwx0_2 : ∀ i : grid0.Coords, EltTy.bits .bf16 = 32 ∨ (Rect.block (s := S8x4096x64) S1x4096x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x1024.size a ≤ S8x4096x4096.size a
  hwx1_0 : ∀ i : grid1.Coords, EltTy.bits .f32 = 32 ∨ (Rect.block (s := S8x4096x4096) S1x2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S8x4096x64.size a
  hwx1_1 : ∀ i : grid1.Coords, EltTy.bits .bf16 = 32 ∨ (Rect.block (s := S8x4096x64) S1x1024x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x64.size a ≤ S8x4096x64.size a
  hwx1_3 : ∀ i : grid1.Coords, EltTy.bits .f32 = 32 ∨ (Rect.block (s := S8x4096x64) S1x2048x64.size (cc1_transform_3 i) (hinb1_3 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_arg0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x4096x64 : Shape := ⟨3, ![8, 4096, 64]⟩
abbrev S8x4096x4096 : Shape := ⟨3, ![8, 4096, 4096]⟩
abbrev S64x64 : Shape := ⟨2, ![64, 64]⟩
abbrev S64 : Shape := ⟨1, ![64]⟩
abbrev S1x1x64 : Shape := ⟨3, ![1, 1, 64]⟩

abbrev nBuf : Space → Nat
  | .hbm => 9
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x4096, .f32⟩
  | .hbm, ⟨2, _⟩ => ⟨S64x64, .f32⟩
  | .hbm, ⟨3, _⟩ => ⟨S64, .f32⟩
  | .hbm, ⟨4, _⟩ => ⟨S8x4096x64, .f32⟩
  | .hbm, ⟨5, _⟩ => ⟨S8x4096x64, .f32⟩
  | .hbm, ⟨6, _⟩ => ⟨S1x1x64, .f32⟩
  | .hbm, ⟨7, _⟩ => ⟨S8x4096x64, .f32⟩
  | .hbm, ⟨8, _⟩ => ⟨S8x4096x64, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x4096x64_0_1_2 : S1x1x64.BroadcastsInDim S8x4096x64 (![0, 1, 2] : Fin 3 → Fin S8x4096x64.rank)
  dot_S8x4096x64_S64x64_S8x4096x64_2_0_01_1_n_n_wf : DotDims.WF S8x4096x64 S64x64 S8x4096x64 [2] [0] [0, 1] [1] [] []
  dot_S8x4096x4096_S8x4096x64_S8x4096x64_2_1_1_2_0_0_wf : DotDims.WF S8x4096x4096 S8x4096x64 S8x4096x64 [2] [1] [1] [2] [0] [0]

variable [Facts₀]

def dot_S8x4096x64_S64x64_S8x4096x64_2_0_01_1_n_n : DotDims S8x4096x64 S64x64 S8x4096x64 where
  lhsContracting := [2]
  rhsContracting := [0]
  lhsNonContracting := [0, 1]
  rhsNonContracting := [1]
  lhsBatch := []
  rhsBatch := []
  wf := dot_S8x4096x64_S64x64_S8x4096x64_2_0_01_1_n_n_wf
def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf

class Facts : Prop extends Facts₀ where

variable [Facts]
-- ==== Proof.Kernel.Region0.lean ====
/-
  The first pallas_call (the projection hidden = text · weight, one batch row per grid point), at a parameter `V`:
  the core's buffer contents when the region is entered. Each input window's staging buffer holds its block of the
  array at every point; the body's one store covers the output block, so the buffer ends at the stored product,
  a function of the two input blocks; the proof data name that, and the body obligation follows at every point.
-/
import proofs.«140175_j14156212208279_1_alg».proof.Proof.Gen.Kernel.Launch
import proofs.«140175_j14156212208279_1_alg».proof.Proof.Gen.Kernel.Skeleton
import proofs.«140175_j14156212208279_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The text window's staging buffer holds batch row `t` at point `t`. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight matrix at every point (fetched once; its block never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole [1,4096,64] block and the whole [64,64] matrix, as rectangles. -/
abbrev r0_0 : Rect S1x4096x64 := Rect.unit (s := S1x4096x64) ![0, 0, 0] S1x4096x64.size inb_S1x4096x64_S1x4096x64_0_0_0
abbrev r0_1 : Rect S64x64 := Rect.unit (s := S64x64) ![0, 0] S64x64.size inb_S64x64_S64x64_0_0

/-- What the body leaves in the output window's buffer: its one store, of the product of the two loaded blocks. -/
def out0_2 (x0 : Vec F S1x4096x64 .f32) (x1 : Vec F S64x64 .f32) : Vec F S1x4096x64 .bf16 :=
  View.canon [⟨r0_0, k0_pay1 (View.ld x0 r0_0) (View.ld x1 r0_1)⟩]

/-- The store covers the whole buffer. -/
theorem cover0_2 (p0 : Vec F S1x4096x64 .bf16) (y : S1x4096x64.Idx) :
    ∃ pc ∈ ([⟨r0_0, p0⟩] : List (View.Piece (Elt F) S1x4096x64 .bf16)), y ∈ pc.1.set :=
  View.cover_of_tiled [⟨r0_0, p0⟩] S1x4096x64.size (by rfl) y

set_option maxHeartbeats 1000000 in
/-- The body on whole staging memrefs, the inputs' at contents `x0`, `x1` and the output's at anything, runs to the
    continuation with the inputs' unchanged and the output's at `out0_2 x0 x1`. -/
theorem sound_kernel0 (c : Dev nD) (E : Set ℕ) (i : grid0.Coords) (arg1 : Memref sig .tc .vmem S1x4096x64 .f32) (harg1 : arg1.IsWhole)
    (arg2 : Memref sig .tc .vmem S64x64 .f32) (harg2 : arg2.IsWhole) (arg3 : Memref sig .tc .vmem S1x4096x64 .bf16) (harg3 : arg3.IsWhole)
    (x0 : Vec F S1x4096x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__hidden_kernel i arg1 harg1 arg2 harg2 arg3 harg3) K := by
  simp only [cc0__hidden_kernel_eq_skeleton]; unfold cc0__hidden_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as the region finds them; after the body at point `t`
    each input's buffer at its block and the output's at the product of the two blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Runs1.lean ====
/-
  The second pallas_call (out = adj · hidden + bias, accumulated over the four column blocks of adj in a scratch
  buffer), what its three control cases share, at a parameter `V` (the buffer contents at the region's entry):
  each input window's block; the two branch conditions in closed form over the 64 grid points (the accumulator is
  reset where the last grid coordinate is 0, the output stored where it is 3); where the output window is idle;
  the staging and scratch memrefs by name; the class invariant with the scratch buffer split out.
-/
import proofs.«140175_j14156212208279_1_alg».proof.Proof.Gen.Kernel.Launch
import proofs.«140175_j14156212208279_1_alg».proof.Proof.Gen.Kernel.Skeleton
import proofs.«140175_j14156212208279_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- "The last grid coordinate is 0": the accumulator is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "The last grid coordinate is 3": the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the output is not stored the window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs -/

/-- One staging buffer of the output window, and the scratch buffer, as views through which contents are stated. -/
abbrev VO1_3 : View sig .tc .vmem S1x2048x64 .f32 := (Memref.whole cc1_stg3_0 : Memref sig .tc .vmem S1x2048x64 .f32).view
abbrev ms1_0 (t : Fin cfg1.N) : Memref sig .tc .vmem S1x2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048x64 .f32 := win1_3.stage (cfg1.slots t 3)
abbrev hs1_3 (t : Fin cfg1.N) : (ms1_3 t).IsWhole := hstage1_3 ((cfg1.slots t 3).cast nbuf1_3)
abbrev scM1_0 : Memref sig .tc .vmem S2048x64 .f32 := Memref.whole cc1_scratch0
abbrev VS1_0 : View sig .tc .vmem S2048x64 .f32 := scM1_0.view

/-- The class invariant with the scratch buffer as a memref owned at some contents, beside the other scoped
    buffers of the core (the first call's staging buffers) and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.Kernel.Run1A.lean ====
/-
  The second pallas_call's body run once, in the case where the accumulator is reset and the output not stored (last grid coordinate 0): on whole staging memrefs, the inputs' at named contents, the body
  runs to its continuation with the inputs' as they were and each buffer it stored into holding its stores, as a list of
  pieces (last store first) that the run itself finds when it hands the buffer back.
-/
import proofs.«140175_j14156212208279_1_alg».proof.Proof.Kernel.Runs1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Case A: the scratch is entered at anything, reset, and left at the first block product over the reset value; the
    output window's buffer is handed back untouched. -/
noncomputable def kernelRun1_A (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : cond1_0 i) (hc1 : ¬cond1_1 i)
    (x0 : Vec F S1x2048x1024 .f32) (x1 : Vec F S1x1024x64 .bf16) (x2 : Vec F S1x64 .f32) :
    Σ' (L3 : List (View.Piece (Elt F) S1x2048x64 .f32)), { LS0 : List (View.Piece (Elt F) S2048x64 .f32) //
      ∀ (xi3 : Vec F S1x2048x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg3 harg3 arg4 harg4 arg5 harg5 arg6 harg6 arg7 harg7) K } := by
  refine ⟨[], ?_, fun xi3 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.Kernel.Run1B.lean ====
/-
  The second pallas_call's body run once, in the case where the accumulator is neither reset nor the output stored (last grid coordinate 1 or 2): on whole staging memrefs, the inputs' at named contents, the body
  runs to its continuation with the inputs' as they were and each buffer it stored into holding its stores, as a list of
  pieces (last store first) that the run itself finds when it hands the buffer back.
-/
import proofs.«140175_j14156212208279_1_alg».proof.Proof.Kernel.Run1A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Case B: the scratch is entered at what the point before left (`xs0`) and left with the block product added;
    the output window's buffer is handed back untouched. -/
noncomputable def kernelRun1_B (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : ¬cond1_0 i) (hc1 : ¬cond1_1 i)
    (x0 : Vec F S1x2048x1024 .f32) (x1 : Vec F S1x1024x64 .bf16) (x2 : Vec F S1x64 .f32) (xs0 : Vec F S2048x64 .f32) :
    Σ' (L3 : List (View.Piece (Elt F) S1x2048x64 .f32)), { LS0 : List (View.Piece (Elt F) S2048x64 .f32) //
      ∀ (xi3 : Vec F S1x2048x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg3 harg3 arg4 harg4 arg5 harg5 arg6 harg6 arg7 harg7) K } := by
  refine ⟨[], ?_, fun xi3 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.Kernel.Run1C.lean ====
/-
  The second pallas_call's body run once, in the case where the accumulator is not reset and the output is stored (last grid coordinate 3): on whole staging memrefs, the inputs' at named contents, the body
  runs to its continuation with the inputs' as they were and each buffer it stored into holding its stores, as a list of
  pieces (last store first) that the run itself finds when it hands the buffer back.
-/
import proofs.«140175_j14156212208279_1_alg».proof.Proof.Kernel.Run1B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Case C: the scratch is entered at what the point before left (`xs0`) and left with the block product added;
    the output window's buffer, entered at anything, is left at the accumulator plus the bias row. -/
noncomputable def kernelRun1_C (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : ¬cond1_0 i) (hc1 : cond1_1 i)
    (x0 : Vec F S1x2048x1024 .f32) (x1 : Vec F S1x1024x64 .bf16) (x2 : Vec F S1x64 .f32) (xs0 : Vec F S2048x64 .f32) :
    Σ' (L3 : List (View.Piece (Elt F) S1x2048x64 .f32)), { LS0 : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg3 harg3 arg4 harg4 arg5 harg5 arg6 harg6 arg7 harg7) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.Kernel.Region1.lean ====
/-
  The second pallas_call, point by point. What the output window's staging buffer and the scratch accumulator hold
  after each grid point is defined by recursion on the point: where the last grid coordinate is 0 the accumulator is
  reset and the first block product added; elsewhere the product is added to what the point before left; where the
  coordinate is 3 the output buffer takes the accumulator plus the bias row. The region's invariant carries the
  accumulator from each point to the next; with it the body obligation holds at every point.
-/
import proofs.«140175_j14156212208279_1_alg».proof.Proof.Kernel.Run1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's stores into the scratch cover it. -/
theorem scover1_A_0 (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : cond1_0 i) (hc1 : ¬cond1_1 i) (x0 : Vec F S1x2048x1024 .f32) (x1 : Vec F S1x1024x64 .bf16) (x2 : Vec F S1x64 .f32) (y : S2048x64.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S2048x64.size (by sl_kernel_rfl) y
/-- What case A leaves in the scratch. -/
def sout1_A_0 (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : cond1_0 i) (hc1 : ¬cond1_1 i) (x0 : Vec F S1x2048x1024 .f32) (x1 : Vec F S1x1024x64 .bf16) (x2 : Vec F S1x64 .f32) : Vec F S2048x64 .f32 :=
  VS1_0.read (Elt F) (VS1_0.writes (Elt F) VS1_0.junk (kernelRun1_A c i arg3 harg3 arg4 harg4 arg5 harg5 arg6 harg6 arg7 harg7 hc0 hc1 x0 x1 x2).2.1)
/-- Case A stores nothing into the output window's buffer: a placeholder nothing consults. -/
def out1_A_3 (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : cond1_0 i) (hc1 : ¬cond1_1 i) (x0 : Vec F S1x2048x1024 .f32) (x1 : Vec F S1x1024x64 .bf16) (x2 : Vec F S1x64 .f32) : Vec F S1x2048x64 .f32 :=
  VO1_3.read (Elt F) (VO1_3.writes (Elt F) VO1_3.junk (kernelRun1_A c i arg3 harg3 arg4 harg4 arg5 harg5 arg6 harg6 arg7 harg7 hc0 hc1 x0 x1 x2).1)

theorem scover1_B_0 (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : ¬cond1_0 i) (hc1 : ¬cond1_1 i) (x0 : Vec F S1x2048x1024 .f32) (x1 : Vec F S1x1024x64 .bf16) (x2 : Vec F S1x64 .f32) (xs0 : Vec F S2048x64 .f32) (y : S2048x64.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S2048x64.size (by sl_kernel_rfl) y
def sout1_B_0 (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : ¬cond1_0 i) (hc1 : ¬cond1_1 i) (x0 : Vec F S1x2048x1024 .f32) (x1 : Vec F S1x1024x64 .bf16) (x2 : Vec F S1x64 .f32) (xs0 : Vec F S2048x64 .f32) : Vec F S2048x64 .f32 :=
  VS1_0.read (Elt F) (VS1_0.writes (Elt F) VS1_0.junk (kernelRun1_B c i arg3 harg3 arg4 harg4 arg5 harg5 arg6 harg6 arg7 harg7 hc0 hc1 x0 x1 x2 xs0).2.1)
def out1_B_3 (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : ¬cond1_0 i) (hc1 : ¬cond1_1 i) (x0 : Vec F S1x2048x1024 .f32) (x1 : Vec F S1x1024x64 .bf16) (x2 : Vec F S1x64 .f32) (xs0 : Vec F S2048x64 .f32) : Vec F S1x2048x64 .f32 :=
  VO1_3.read (Elt F) (VO1_3.writes (Elt F) VO1_3.junk (kernelRun1_B c i arg3 harg3 arg4 harg4 arg5 harg5 arg6 harg6 arg7 harg7 hc0 hc1 x0 x1 x2 xs0).1)

theorem scover1_C_0 (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : ¬cond1_0 i) (hc1 : cond1_1 i) (x0 : Vec F S1x2048x1024 .f32) (x1 : Vec F S1x1024x64 .bf16) (x2 : Vec F S1x64 .f32) (xs0 : Vec F S2048x64 .f32) (y : S2048x64.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S2048x64.size (by sl_kernel_rfl) y
def sout1_C_0 (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : ¬cond1_0 i) (hc1 : cond1_1 i) (x0 : Vec F S1x2048x1024 .f32) (x1 : Vec F S1x1024x64 .bf16) (x2 : Vec F S1x64 .f32) (xs0 : Vec F S2048x64 .f32) : Vec F S2048x64 .f32 :=
  VS1_0.read (Elt F) (VS1_0.writes (Elt F) VS1_0.junk (kernelRun1_C c i arg3 harg3 arg4 harg4 arg5 harg5 arg6 harg6 arg7 harg7 hc0 hc1 x0 x1 x2 xs0).2.1)
/-- Case C's store into the output window's buffer covers it. -/
theorem cover1_C_3 (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : ¬cond1_0 i) (hc1 : cond1_1 i) (x0 : Vec F S1x2048x1024 .f32) (x1 : Vec F S1x1024x64 .bf16) (x2 : Vec F S1x64 .f32) (xs0 : Vec F S2048x64 .f32) (y : S1x2048x64.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1x2048x64.size (by sl_kernel_rfl) y
def out1_C_3 (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : ¬cond1_0 i) (hc1 : cond1_1 i) (x0 : Vec F S1x2048x1024 .f32) (x1 : Vec F S1x1024x64 .bf16) (x2 : Vec F S1x64 .f32) (xs0 : Vec F S2048x64 .f32) : Vec F S1x2048x64 .f32 :=
  VO1_3.read (Elt F) (VO1_3.writes (Elt F) VO1_3.junk (kernelRun1_C c i arg3 harg3 arg4 harg4 arg5 harg5 arg6 harg6 arg7 harg7 hc0 hc1 x0 x1 x2 xs0).1)

/-! ## After each point -/

/-- What the output window's buffer (first component) and the scratch (second) hold after the body at position `n`. -/
def outsAt1 (c : Dev nD) : (n : ℕ) → n < cfg1.N → Vec F S1x2048x64 .f32 × Vec F S2048x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t),
      sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the region's entry the class invariant (every scoped buffer no window stages at anything,
    the generator register at some state); afterwards the same with the scratch at what the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the scratch at what the point before left (at anything at the first point) and takes it
    back at this point's contents; where the output is not stored its buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨Hb0, Hb1, Hb2, Hb3, Hb4, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg Hb0 Hb1 Hb2 Hb3 Hb4]
        · isplitr [Hg]
          · isplitl [Hb0]; · iexact Hb0
            isplitl [Hb1]; · iexact Hb1
            isplitl [Hb2]; · iexact Hb2
            isplitl [Hb3]; · iexact Hb3
            isplitl [Hb4]; · iexact Hb4
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨Hb0, Hb1, Hb2, Hb3, Hb4, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg Hb0 Hb1 Hb2 Hb3 Hb4]
        · isplitr [Hg]
          · isplitl [Hb0]; · iexact Hb0
            isplitl [Hb1]; · iexact Hb1
            isplitl [Hb2]; · iexact Hb2
            isplitl [Hb3]; · iexact Hb3
            isplitl [Hb4]; · iexact Hb4
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS_castSucc V c t, PhiS_pos V c _ _ hz]
        iintro ⟨⟨⟨Hb0, Hb1, Hb2, Hb3, Hb4, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg Hb0 Hb1 Hb2 Hb3 Hb4]
        · isplitr [Hg]
          · isplitl [Hb0]; · iexact Hb0
            isplitl [Hb1]; · iexact Hb1
            isplitl [Hb2]; · iexact Hb2
            isplitl [Hb3]; · iexact Hb3
            isplitl [Hb4]; · iexact Hb4
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨⟨Hb0, Hb1, Hb2, Hb3, Hb4, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg Hb0 Hb1 Hb2 Hb3 Hb4]
        · isplitr [Hg]
          · isplitl [Hb0]; · iexact Hb0
            isplitl [Hb1]; · iexact Hb1
            isplitl [Hb2]; · iexact Hb2
            isplitl [Hb3]; · iexact Hb3
            isplitl [Hb4]; · iexact Hb4
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Hb0, Hb1, Hb2, Hb3, Hb4, HS0⟩, Hg⟩
  isplitr [Hg]
  · isplitl [Hb0]; · iexact Hb0
    isplitl [Hb1]; · iexact Hb1
    isplitl [Hb2]; · iexact Hb2
    isplitl [Hb3]; · iexact Hb3
    isplitl [Hb4]; · iexact Hb4
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.Kernel.Run.lean ====
/-
  The whole run of @main: the first pallas_call, the host reshape of the bias, the second pallas_call. The buffer
  contents at each boundary are a fold from the launch memory: after a pallas_call its arrays hold what its write-backs
  leave and every other buffer what it held; after the reshape the reshaped buffer holds the reshaped bias. Each
  pallas_call is entered from all unscoped buffers at the boundary's contents and left at the next boundary's; so
  every weakly fair execution terminates, and at the end every unscoped buffer holds the last boundary's contents —
  from which the four arguments are read back to their launch contents.
-/
import proofs.«140175_j14156212208279_1_alg».proof.Proof.Kernel.Region0
import proofs.«140175_j14156212208279_1_alg».proof.Proof.Kernel.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (the first pallas_call's entry). -/
abbrev W0 : Dev nD → Valuation τ sig (Elt F) := fun c b => m (c, b)
abbrev Vr0 : (c : Dev nD) → (b : Ref sig .tc) → Buf (Elt F) ((c : Thread nD τ).loc b) := fun c b => W0 m c b
/-- At the first pallas_call's exit: its arrays at what the pipeline leaves, every other buffer as entered. -/
def W1 (c : Dev nD) : Valuation τ sig (Elt F) :=
  Pipeline.withArrays spec0 c (W0 m c) fun w => (dat0 (Vr0 m) c).arrAt w cfg0.N
theorem W1_arr (c : Dev nD) (w : Fin cfg0.W) :
    W1 m c (Proc.devRef .tc (Pipeline.arrRef spec0 w)) = (dat0 (Vr0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vr1 : (c : Dev nD) → (b : Ref sig .tc) → Buf (Elt F) ((c : Thread nD τ).loc b) := fun c b => W1 m c b
theorem hF0 (c : Dev nD) (w : Fin cfg0.W) : (dat0 (Vr0 m) c).arrAt w cfg0.N = Vr1 m c (Pipeline.arrRef spec0 w) :=
  (W1_arr m c w).symm
theorem hrest0 (c : Dev nD) : ∀ b, b ∉ Finset.univ.image (Pipeline.arrRef spec0) → Vr1 m c b = Vr0 m c b :=
  fun b hb => W1_of_ne m c b fun w e => hb (Finset.mem_image.mpr ⟨w, Finset.mem_univ _, e⟩)

/-- After the reshape of the bias (the second pallas_call's entry). -/
abbrev W2 : Dev nD → Valuation τ sig (Elt F) := fun c => StableHlo.after hostOps1 (W1 m c)
abbrev Vr2 : (c : Dev nD) → (b : Ref sig .tc) → Buf (Elt F) ((c : Thread nD τ).loc b) := fun c b => W2 m c b
/-- At the second pallas_call's exit. -/
def W3 (c : Dev nD) : Valuation τ sig (Elt F) :=
  Pipeline.withArrays spec1 c (W2 m c) fun w => (dat1 (Vr2 m) c).arrAt w cfg1.N
theorem W3_arr (c : Dev nD) (w : Fin cfg1.W) :
    W3 m c (Proc.devRef .tc (Pipeline.arrRef spec1 w)) = (dat1 (Vr2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Vr3 : (c : Dev nD) → (b : Ref sig .tc) → Buf (Elt F) ((c : Thread nD τ).loc b) := fun c b => W3 m c b
theorem hF1 (c : Dev nD) (w : Fin cfg1.W) : (dat1 (Vr2 m) c).arrAt w cfg1.N = Vr3 m c (Pipeline.arrRef spec1 w) :=
  (W3_arr m c w).symm
theorem hrest1 (c : Dev nD) : ∀ b, b ∉ Finset.univ.image (Pipeline.arrRef spec1) → Vr3 m c b = Vr2 m c b :=
  fun b hb => W3_of_ne m c b fun w e => hb (Finset.mem_image.mpr ⟨w, Finset.mem_univ _, e⟩)

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W1_arr m c 0).trans (((dat0 (Vr0 m) c).arrAt_in 0 rfl _).trans (A_eq0 (Vr0 m) c 0))
    _ = m ((c : Thread nD τ).loc main_arg0) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := (W1_arr m c 1).trans (((dat0 (Vr0 m) c).arrAt_in 1 rfl _).trans (A_eq0 (Vr0 m) c 1))
    _ = m ((c : Thread nD τ).loc main_arg2) := rfl

theorem W2_main_arg1 (c : Dev nD) : W2 m c (Proc.devRef .tc main_arg1) = m ((c : Thread nD τ).loc main_arg1) :=
  calc W2 m c (Proc.devRef .tc main_arg1)
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := W1_of_ne m c main_arg1 (by decide)
    _ = m ((c : Thread nD τ).loc main_arg1) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (Vr2 m) c).arrAt_in 0 rfl _).trans (A_eq1 (Vr2 m) c 0))
    _ = m ((c : Thread nD τ).loc main_arg1) := W2_main_arg1 m c

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg3) := W1_of_ne m c main_arg3 (by decide)
    _ = m ((c : Thread nD τ).loc main_arg3) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (Vr2 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (Vr2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr2 m c) (Vr3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

theorem hostOps1_fresh : (hostOps1 : List (HloOp τ sig (Elt F))).Forall fun op => op.fresh = ∅ := by
  simp only [List.Forall]; repeat' constructor

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and at the
    end every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.Kernel.Hand

end
-- ==== Proof.KernelIdeal.Region0.lean ====
/-
  The first pallas_call (the projection hidden = text · weight, one batch row per grid point), at a parameter `V`:
  the core's buffer contents when the region is entered. Each input window's staging buffer holds its block of the
  array at every point; the body's one store covers the output block, so the buffer ends at the stored product,
  a function of the two input blocks; the proof data name that, and the body obligation follows at every point.
-/
import proofs.«140175_j14156212208279_1_alg».proof.Proof.Gen.KernelIdeal.Launch
import proofs.«140175_j14156212208279_1_alg».proof.Proof.Gen.KernelIdeal.Skeleton
import proofs.«140175_j14156212208279_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The text window's staging buffer holds batch row `t` at point `t`. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight matrix at every point (fetched once; its block never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole [1,4096,64] block and the whole [64,64] matrix, as rectangles. -/
abbrev r0_0 : Rect S1x4096x64 := Rect.unit (s := S1x4096x64) ![0, 0, 0] S1x4096x64.size inb_S1x4096x64_S1x4096x64_0_0_0
abbrev r0_1 : Rect S64x64 := Rect.unit (s := S64x64) ![0, 0] S64x64.size inb_S64x64_S64x64_0_0

/-- What the body leaves in the output window's buffer: its one store, of the product of the two loaded blocks. -/
def out0_2 (x0 : Vec F S1x4096x64 .f32) (x1 : Vec F S64x64 .f32) : Vec F S1x4096x64 .bf16 :=
  View.canon [⟨r0_0, k0_pay1 (View.ld x0 r0_0) (View.ld x1 r0_1)⟩]

/-- The store covers the whole buffer. -/
theorem cover0_2 (p0 : Vec F S1x4096x64 .bf16) (y : S1x4096x64.Idx) :
    ∃ pc ∈ ([⟨r0_0, p0⟩] : List (View.Piece (Elt F) S1x4096x64 .bf16)), y ∈ pc.1.set :=
  View.cover_of_tiled [⟨r0_0, p0⟩] S1x4096x64.size (by rfl) y

set_option maxHeartbeats 1000000 in
/-- The body on whole staging memrefs, the inputs' at contents `x0`, `x1` and the output's at anything, runs to the
    continuation with the inputs' unchanged and the output's at `out0_2 x0 x1`. -/
theorem sound_kernel0 (c : Dev nD) (E : Set ℕ) (i : grid0.Coords) (arg1 : Memref sig .tc .vmem S1x4096x64 .f32) (harg1 : arg1.IsWhole)
    (arg2 : Memref sig .tc .vmem S64x64 .f32) (harg2 : arg2.IsWhole) (arg3 : Memref sig .tc .vmem S1x4096x64 .bf16) (harg3 : arg3.IsWhole)
    (x0 : Vec F S1x4096x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__hidden_kernel i arg1 harg1 arg2 harg2 arg3 harg3) K := by
  simp only [cc0__hidden_kernel_eq_skeleton]; unfold cc0__hidden_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as the region finds them; after the body at point `t`
    each input's buffer at its block and the output's at the product of the two blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Runs1.lean ====
/-
  The second pallas_call (out = adj · hidden + bias, accumulated over the four column blocks of adj in a scratch
  buffer), what its three control cases share, at a parameter `V` (the buffer contents at the region's entry):
  each input window's block; the two branch conditions in closed form over the 64 grid points (the accumulator is
  reset where the last grid coordinate is 0, the output stored where it is 3); where the output window is idle;
  the staging and scratch memrefs by name; the class invariant with the scratch buffer split out.
-/
import proofs.«140175_j14156212208279_1_alg».proof.Proof.Gen.KernelIdeal.Launch
import proofs.«140175_j14156212208279_1_alg».proof.Proof.Gen.KernelIdeal.Skeleton
import proofs.«140175_j14156212208279_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- "The last grid coordinate is 0": the accumulator is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "The last grid coordinate is 3": the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the output is not stored the window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs -/

/-- One staging buffer of the output window, and the scratch buffer, as views through which contents are stated. -/
abbrev VO1_3 : View sig .tc .vmem S1x2048x64 .f32 := (Memref.whole cc1_stg3_0 : Memref sig .tc .vmem S1x2048x64 .f32).view
abbrev ms1_0 (t : Fin cfg1.N) : Memref sig .tc .vmem S1x2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048x64 .f32 := win1_3.stage (cfg1.slots t 3)
abbrev hs1_3 (t : Fin cfg1.N) : (ms1_3 t).IsWhole := hstage1_3 ((cfg1.slots t 3).cast nbuf1_3)
abbrev scM1_0 : Memref sig .tc .vmem S2048x64 .f32 := Memref.whole cc1_scratch0
abbrev VS1_0 : View sig .tc .vmem S2048x64 .f32 := scM1_0.view

/-- The class invariant with the scratch buffer as a memref owned at some contents, beside the other scoped
    buffers of the core (the first call's staging buffers) and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KernelIdeal.Run1A.lean ====
/-
  The second pallas_call's body run once, in the case where the accumulator is reset and the output not stored (last grid coordinate 0): on whole staging memrefs, the inputs' at named contents, the body
  runs to its continuation with the inputs' as they were and each buffer it stored into holding its stores, as a list of
  pieces (last store first) that the run itself finds when it hands the buffer back.
-/
import proofs.«140175_j14156212208279_1_alg».proof.Proof.KernelIdeal.Runs1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Case A: the scratch is entered at anything, reset, and left at the first block product over the reset value; the
    output window's buffer is handed back untouched. -/
noncomputable def kernelRun1_A (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : cond1_0 i) (hc1 : ¬cond1_1 i)
    (x0 : Vec F S1x2048x1024 .f32) (x1 : Vec F S1x1024x64 .bf16) (x2 : Vec F S1x64 .f32) :
    Σ' (L3 : List (View.Piece (Elt F) S1x2048x64 .f32)), { LS0 : List (View.Piece (Elt F) S2048x64 .f32) //
      ∀ (xi3 : Vec F S1x2048x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg3 harg3 arg4 harg4 arg5 harg5 arg6 harg6 arg7 harg7) K } := by
  refine ⟨[], ?_, fun xi3 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KernelIdeal.Run1B.lean ====
/-
  The second pallas_call's body run once, in the case where the accumulator is neither reset nor the output stored (last grid coordinate 1 or 2): on whole staging memrefs, the inputs' at named contents, the body
  runs to its continuation with the inputs' as they were and each buffer it stored into holding its stores, as a list of
  pieces (last store first) that the run itself finds when it hands the buffer back.
-/
import proofs.«140175_j14156212208279_1_alg».proof.Proof.KernelIdeal.Run1A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Case B: the scratch is entered at what the point before left (`xs0`) and left with the block product added;
    the output window's buffer is handed back untouched. -/
noncomputable def kernelRun1_B (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : ¬cond1_0 i) (hc1 : ¬cond1_1 i)
    (x0 : Vec F S1x2048x1024 .f32) (x1 : Vec F S1x1024x64 .bf16) (x2 : Vec F S1x64 .f32) (xs0 : Vec F S2048x64 .f32) :
    Σ' (L3 : List (View.Piece (Elt F) S1x2048x64 .f32)), { LS0 : List (View.Piece (Elt F) S2048x64 .f32) //
      ∀ (xi3 : Vec F S1x2048x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg3 harg3 arg4 harg4 arg5 harg5 arg6 harg6 arg7 harg7) K } := by
  refine ⟨[], ?_, fun xi3 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KernelIdeal.Run1C.lean ====
/-
  The second pallas_call's body run once, in the case where the accumulator is not reset and the output is stored (last grid coordinate 3): on whole staging memrefs, the inputs' at named contents, the body
  runs to its continuation with the inputs' as they were and each buffer it stored into holding its stores, as a list of
  pieces (last store first) that the run itself finds when it hands the buffer back.
-/
import proofs.«140175_j14156212208279_1_alg».proof.Proof.KernelIdeal.Run1B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Case C: the scratch is entered at what the point before left (`xs0`) and left with the block product added;
    the output window's buffer, entered at anything, is left at the accumulator plus the bias row. -/
noncomputable def kernelRun1_C (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : ¬cond1_0 i) (hc1 : cond1_1 i)
    (x0 : Vec F S1x2048x1024 .f32) (x1 : Vec F S1x1024x64 .bf16) (x2 : Vec F S1x64 .f32) (xs0 : Vec F S2048x64 .f32) :
    Σ' (L3 : List (View.Piece (Elt F) S1x2048x64 .f32)), { LS0 : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg3 harg3 arg4 harg4 arg5 harg5 arg6 harg6 arg7 harg7) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KernelIdeal.Region1.lean ====
/-
  The second pallas_call, point by point. What the output window's staging buffer and the scratch accumulator hold
  after each grid point is defined by recursion on the point: where the last grid coordinate is 0 the accumulator is
  reset and the first block product added; elsewhere the product is added to what the point before left; where the
  coordinate is 3 the output buffer takes the accumulator plus the bias row. The region's invariant carries the
  accumulator from each point to the next; with it the body obligation holds at every point.
-/
import proofs.«140175_j14156212208279_1_alg».proof.Proof.KernelIdeal.Run1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's stores into the scratch cover it. -/
theorem scover1_A_0 (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : cond1_0 i) (hc1 : ¬cond1_1 i) (x0 : Vec F S1x2048x1024 .f32) (x1 : Vec F S1x1024x64 .bf16) (x2 : Vec F S1x64 .f32) (y : S2048x64.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S2048x64.size (by sl_kernel_rfl) y
/-- What case A leaves in the scratch. -/
def sout1_A_0 (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : cond1_0 i) (hc1 : ¬cond1_1 i) (x0 : Vec F S1x2048x1024 .f32) (x1 : Vec F S1x1024x64 .bf16) (x2 : Vec F S1x64 .f32) : Vec F S2048x64 .f32 :=
  VS1_0.read (Elt F) (VS1_0.writes (Elt F) VS1_0.junk (kernelRun1_A c i arg3 harg3 arg4 harg4 arg5 harg5 arg6 harg6 arg7 harg7 hc0 hc1 x0 x1 x2).2.1)
/-- Case A stores nothing into the output window's buffer: a placeholder nothing consults. -/
def out1_A_3 (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : cond1_0 i) (hc1 : ¬cond1_1 i) (x0 : Vec F S1x2048x1024 .f32) (x1 : Vec F S1x1024x64 .bf16) (x2 : Vec F S1x64 .f32) : Vec F S1x2048x64 .f32 :=
  VO1_3.read (Elt F) (VO1_3.writes (Elt F) VO1_3.junk (kernelRun1_A c i arg3 harg3 arg4 harg4 arg5 harg5 arg6 harg6 arg7 harg7 hc0 hc1 x0 x1 x2).1)

theorem scover1_B_0 (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : ¬cond1_0 i) (hc1 : ¬cond1_1 i) (x0 : Vec F S1x2048x1024 .f32) (x1 : Vec F S1x1024x64 .bf16) (x2 : Vec F S1x64 .f32) (xs0 : Vec F S2048x64 .f32) (y : S2048x64.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S2048x64.size (by sl_kernel_rfl) y
def sout1_B_0 (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : ¬cond1_0 i) (hc1 : ¬cond1_1 i) (x0 : Vec F S1x2048x1024 .f32) (x1 : Vec F S1x1024x64 .bf16) (x2 : Vec F S1x64 .f32) (xs0 : Vec F S2048x64 .f32) : Vec F S2048x64 .f32 :=
  VS1_0.read (Elt F) (VS1_0.writes (Elt F) VS1_0.junk (kernelRun1_B c i arg3 harg3 arg4 harg4 arg5 harg5 arg6 harg6 arg7 harg7 hc0 hc1 x0 x1 x2 xs0).2.1)
def out1_B_3 (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : ¬cond1_0 i) (hc1 : ¬cond1_1 i) (x0 : Vec F S1x2048x1024 .f32) (x1 : Vec F S1x1024x64 .bf16) (x2 : Vec F S1x64 .f32) (xs0 : Vec F S2048x64 .f32) : Vec F S1x2048x64 .f32 :=
  VO1_3.read (Elt F) (VO1_3.writes (Elt F) VO1_3.junk (kernelRun1_B c i arg3 harg3 arg4 harg4 arg5 harg5 arg6 harg6 arg7 harg7 hc0 hc1 x0 x1 x2 xs0).1)

theorem scover1_C_0 (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : ¬cond1_0 i) (hc1 : cond1_1 i) (x0 : Vec F S1x2048x1024 .f32) (x1 : Vec F S1x1024x64 .bf16) (x2 : Vec F S1x64 .f32) (xs0 : Vec F S2048x64 .f32) (y : S2048x64.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S2048x64.size (by sl_kernel_rfl) y
def sout1_C_0 (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : ¬cond1_0 i) (hc1 : cond1_1 i) (x0 : Vec F S1x2048x1024 .f32) (x1 : Vec F S1x1024x64 .bf16) (x2 : Vec F S1x64 .f32) (xs0 : Vec F S2048x64 .f32) : Vec F S2048x64 .f32 :=
  VS1_0.read (Elt F) (VS1_0.writes (Elt F) VS1_0.junk (kernelRun1_C c i arg3 harg3 arg4 harg4 arg5 harg5 arg6 harg6 arg7 harg7 hc0 hc1 x0 x1 x2 xs0).2.1)
/-- Case C's store into the output window's buffer covers it. -/
theorem cover1_C_3 (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : ¬cond1_0 i) (hc1 : cond1_1 i) (x0 : Vec F S1x2048x1024 .f32) (x1 : Vec F S1x1024x64 .bf16) (x2 : Vec F S1x64 .f32) (xs0 : Vec F S2048x64 .f32) (y : S1x2048x64.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1x2048x64.size (by sl_kernel_rfl) y
def out1_C_3 (c : Dev nD) (i : grid1.Coords) (arg3 : Memref sig .tc .vmem S1x2048x1024 .f32) (harg3 : arg3.IsWhole) (arg4 : Memref sig .tc .vmem S1x1024x64 .bf16) (harg4 : arg4.IsWhole) (arg5 : Memref sig .tc .vmem S1x64 .f32) (harg5 : arg5.IsWhole) (arg6 : Memref sig .tc .vmem S1x2048x64 .f32) (harg6 : arg6.IsWhole) (arg7 : Memref sig .tc .vmem S2048x64 .f32) (harg7 : arg7.IsWhole) (hc0 : ¬cond1_0 i) (hc1 : cond1_1 i) (x0 : Vec F S1x2048x1024 .f32) (x1 : Vec F S1x1024x64 .bf16) (x2 : Vec F S1x64 .f32) (xs0 : Vec F S2048x64 .f32) : Vec F S1x2048x64 .f32 :=
  VO1_3.read (Elt F) (VO1_3.writes (Elt F) VO1_3.junk (kernelRun1_C c i arg3 harg3 arg4 harg4 arg5 harg5 arg6 harg6 arg7 harg7 hc0 hc1 x0 x1 x2 xs0).1)

/-! ## After each point -/

/-- What the output window's buffer (first component) and the scratch (second) hold after the body at position `n`. -/
def outsAt1 (c : Dev nD) : (n : ℕ) → n < cfg1.N → Vec F S1x2048x64 .f32 × Vec F S2048x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t),
      sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the region's entry the class invariant (every scoped buffer no window stages at anything,
    the generator register at some state); afterwards the same with the scratch at what the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the scratch at what the point before left (at anything at the first point) and takes it
    back at this point's contents; where the output is not stored its buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨Hb0, Hb1, Hb2, Hb3, Hb4, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg Hb0 Hb1 Hb2 Hb3 Hb4]
        · isplitr [Hg]
          · isplitl [Hb0]; · iexact Hb0
            isplitl [Hb1]; · iexact Hb1
            isplitl [Hb2]; · iexact Hb2
            isplitl [Hb3]; · iexact Hb3
            isplitl [Hb4]; · iexact Hb4
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨Hb0, Hb1, Hb2, Hb3, Hb4, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg Hb0 Hb1 Hb2 Hb3 Hb4]
        · isplitr [Hg]
          · isplitl [Hb0]; · iexact Hb0
            isplitl [Hb1]; · iexact Hb1
            isplitl [Hb2]; · iexact Hb2
            isplitl [Hb3]; · iexact Hb3
            isplitl [Hb4]; · iexact Hb4
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS_castSucc V c t, PhiS_pos V c _ _ hz]
        iintro ⟨⟨⟨Hb0, Hb1, Hb2, Hb3, Hb4, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg Hb0 Hb1 Hb2 Hb3 Hb4]
        · isplitr [Hg]
          · isplitl [Hb0]; · iexact Hb0
            isplitl [Hb1]; · iexact Hb1
            isplitl [Hb2]; · iexact Hb2
            isplitl [Hb3]; · iexact Hb3
            isplitl [Hb4]; · iexact Hb4
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨⟨Hb0, Hb1, Hb2, Hb3, Hb4, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg Hb0 Hb1 Hb2 Hb3 Hb4]
        · isplitr [Hg]
          · isplitl [Hb0]; · iexact Hb0
            isplitl [Hb1]; · iexact Hb1
            isplitl [Hb2]; · iexact Hb2
            isplitl [Hb3]; · iexact Hb3
            isplitl [Hb4]; · iexact Hb4
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Hb0, Hb1, Hb2, Hb3, Hb4, HS0⟩, Hg⟩
  isplitr [Hg]
  · isplitl [Hb0]; · iexact Hb0
    isplitl [Hb1]; · iexact Hb1
    isplitl [Hb2]; · iexact Hb2
    isplitl [Hb3]; · iexact Hb3
    isplitl [Hb4]; · iexact Hb4
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KernelIdeal.Run.lean ====
/-
  The whole run of @main: the first pallas_call, the host reshape of the bias, the second pallas_call. The buffer
  contents at each boundary are a fold from the launch memory: after a pallas_call its arrays hold what its write-backs
  leave and every other buffer what it held; after the reshape the reshaped buffer holds the reshaped bias. Each
  pallas_call is entered from all unscoped buffers at the boundary's contents and left at the next boundary's; so
  every weakly fair execution terminates, and at the end every unscoped buffer holds the last boundary's contents —
  from which the four arguments are read back to their launch contents.
-/
import proofs.«140175_j14156212208279_1_alg».proof.Proof.KernelIdeal.Region0
import proofs.«140175_j14156212208279_1_alg».proof.Proof.KernelIdeal.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (the first pallas_call's entry). -/
abbrev W0 : Dev nD → Valuation τ sig (Elt F) := fun c b => m (c, b)
abbrev Vr0 : (c : Dev nD) → (b : Ref sig .tc) → Buf (Elt F) ((c : Thread nD τ).loc b) := fun c b => W0 m c b
/-- At the first pallas_call's exit: its arrays at what the pipeline leaves, every other buffer as entered. -/
def W1 (c : Dev nD) : Valuation τ sig (Elt F) :=
  Pipeline.withArrays spec0 c (W0 m c) fun w => (dat0 (Vr0 m) c).arrAt w cfg0.N
theorem W1_arr (c : Dev nD) (w : Fin cfg0.W) :
    W1 m c (Proc.devRef .tc (Pipeline.arrRef spec0 w)) = (dat0 (Vr0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vr1 : (c : Dev nD) → (b : Ref sig .tc) → Buf (Elt F) ((c : Thread nD τ).loc b) := fun c b => W1 m c b
theorem hF0 (c : Dev nD) (w : Fin cfg0.W) : (dat0 (Vr0 m) c).arrAt w cfg0.N = Vr1 m c (Pipeline.arrRef spec0 w) :=
  (W1_arr m c w).symm
theorem hrest0 (c : Dev nD) : ∀ b, b ∉ Finset.univ.image (Pipeline.arrRef spec0) → Vr1 m c b = Vr0 m c b :=
  fun b hb => W1_of_ne m c b fun w e => hb (Finset.mem_image.mpr ⟨w, Finset.mem_univ _, e⟩)

/-- After the reshape of the bias (the second pallas_call's entry). -/
abbrev W2 : Dev nD → Valuation τ sig (Elt F) := fun c => StableHlo.after hostOps1 (W1 m c)
abbrev Vr2 : (c : Dev nD) → (b : Ref sig .tc) → Buf (Elt F) ((c : Thread nD τ).loc b) := fun c b => W2 m c b
/-- At the second pallas_call's exit. -/
def W3 (c : Dev nD) : Valuation τ sig (Elt F) :=
  Pipeline.withArrays spec1 c (W2 m c) fun w => (dat1 (Vr2 m) c).arrAt w cfg1.N
theorem W3_arr (c : Dev nD) (w : Fin cfg1.W) :
    W3 m c (Proc.devRef .tc (Pipeline.arrRef spec1 w)) = (dat1 (Vr2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Vr3 : (c : Dev nD) → (b : Ref sig .tc) → Buf (Elt F) ((c : Thread nD τ).loc b) := fun c b => W3 m c b
theorem hF1 (c : Dev nD) (w : Fin cfg1.W) : (dat1 (Vr2 m) c).arrAt w cfg1.N = Vr3 m c (Pipeline.arrRef spec1 w) :=
  (W3_arr m c w).symm
theorem hrest1 (c : Dev nD) : ∀ b, b ∉ Finset.univ.image (Pipeline.arrRef spec1) → Vr3 m c b = Vr2 m c b :=
  fun b hb => W3_of_ne m c b fun w e => hb (Finset.mem_image.mpr ⟨w, Finset.mem_univ _, e⟩)

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W1_arr m c 0).trans (((dat0 (Vr0 m) c).arrAt_in 0 rfl _).trans (A_eq0 (Vr0 m) c 0))
    _ = m ((c : Thread nD τ).loc main_arg0) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := (W1_arr m c 1).trans (((dat0 (Vr0 m) c).arrAt_in 1 rfl _).trans (A_eq0 (Vr0 m) c 1))
    _ = m ((c : Thread nD τ).loc main_arg2) := rfl

theorem W2_main_arg1 (c : Dev nD) : W2 m c (Proc.devRef .tc main_arg1) = m ((c : Thread nD τ).loc main_arg1) :=
  calc W2 m c (Proc.devRef .tc main_arg1)
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := W1_of_ne m c main_arg1 (by decide)
    _ = m ((c : Thread nD τ).loc main_arg1) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (Vr2 m) c).arrAt_in 0 rfl _).trans (A_eq1 (Vr2 m) c 0))
    _ = m ((c : Thread nD τ).loc main_arg1) := W2_main_arg1 m c

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg3) := W1_of_ne m c main_arg3 (by decide)
    _ = m ((c : Thread nD τ).loc main_arg3) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (Vr2 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (Vr2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr2 m c) (Vr3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

theorem hostOps1_fresh : (hostOps1 : List (HloOp τ sig (Elt F))).Forall fun op => op.fresh = ∅ := by
  simp only [List.Forall]; repeat' constructor

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and at the
    end every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.KernelIdeal.Hand

end
-- ==== Proof.Spec.lean ====
/-
  The mathematics of the certificate, stated once over the extended reals and with no program in sight.

  For text : [8,4096,64], adj : [8,4096,4096], weight : [64,64], bias : [64] the result is

      out[b, r, o] = (Σ_j adj[b, r, j] · hidden[b, j, o]) + bias[o],     hidden[b, l, o] = Σ_f text[b, l, f] · weight[f, o].

  The kernel computes the same number in another order: the sum over j is cut into four runs of 1024 columns, each
  run's partial sum is added to an accumulator that starts at zero, and the bias is added last. Addition of extended
  reals is commutative and associative and zero is neutral, so the two orders agree for every extended-real input
  (no finiteness is needed: nothing is distributed or cancelled).
-/
import Idealize.ShloMosaic.PureOps.Ideal
import Idealize.ShloMosaic.Lib.ValueIdx

noncomputable section

namespace Cert.Spec

open Idealize.ShloMosaic Idealize.ShloMosaic.ValueIdx
open scoped BigOperators

abbrev T3 : Shape := ⟨3, ![8, 4096, 64]⟩
abbrev A3 : Shape := ⟨3, ![8, 4096, 4096]⟩
abbrev W2 : Shape := ⟨2, ![64, 64]⟩
abbrev B1 : Shape := ⟨1, ![64]⟩
abbrev R2 : Shape := ⟨2, ![1, 64]⟩

/-- hidden[b, l, o] = Σ_f text[b, l, f] · weight[f, o]. -/
def hidden (text : T3.Idx → EReal) (w : W2.Idx → EReal) : T3.Idx → EReal :=
  fun i => ∑ f : Fin 64, text (ix3 (i 0) (i 1) f) * w (ix2 f (i 2))

/-- out[b, r, o] = (Σ_j adj[b, r, j] · hid[b, j, o]) + bias[o], for any middle array `hid`. -/
def outOf (adj : A3.Idx → EReal) (hid : T3.Idx → EReal) (bias : B1.Idx → EReal) : T3.Idx → EReal :=
  fun i => (∑ j : Fin 4096, adj (ix3 (i 0) (i 1) j) * hid (ix3 (i 0) j (i 2))) + bias (ix1 (i 2))

/-- The result as a function of the four arguments. -/
def out (text : T3.Idx → EReal) (adj : A3.Idx → EReal) (w : W2.Idx → EReal) (bias : B1.Idx → EReal) : T3.Idx → EReal :=
  outOf adj (hidden text w) bias

/-- Column `k` of the `q`-th run of 1024 columns. -/
def col (q : Fin 4) (k : Fin 1024) : Fin 4096 := ⟨1024 * q.val + k.val, by have := q.isLt; have := k.isLt; omega⟩

/-- The partial sum of run `q` at output position (b, r, o). -/
def part (adj : A3.Idx → EReal) (hid : T3.Idx → EReal) (i : T3.Idx) (q : Fin 4) : EReal :=
  ∑ k : Fin 1024, adj (ix3 (i 0) (i 1) (col q k)) * hid (ix3 (i 0) (col q k) (i 2))

/-- The kernel's order: the four partial sums added one after another into zero, then the bias row (a [1,64] array). -/
def outBlocked (adj : A3.Idx → EReal) (hid : T3.Idx → EReal) (brow : R2.Idx → EReal) : T3.Idx → EReal :=
  fun i => ((((0 + part adj hid i 0) + part adj hid i 1) + part adj hid i 2) + part adj hid i 3) + brow (ix2 0 (i 2))

/-- Columns are numbered run by run: the pair (run, position in the run) and the column number determine each other. -/
def colEquiv : Fin 4 × Fin 1024 ≃ Fin 4096 where
  toFun p := col p.1 p.2
  invFun j := (⟨j.val / 1024, by have := j.isLt; omega⟩, ⟨j.val % 1024, Nat.mod_lt _ (by norm_num)⟩)
  left_inv p := by
    obtain ⟨q, k⟩ := p
    have hq := q.isLt
    have hk := k.isLt
    refine Prod.ext (Fin.ext ?_) (Fin.ext ?_)
    · show (1024 * q.val + k.val) / 1024 = q.val
      omega
    · show (1024 * q.val + k.val) % 1024 = k.val
      omega
  right_inv j := by
    refine Fin.ext ?_
    show 1024 * (j.val / 1024) + j.val % 1024 = j.val
    omega

/-- A sum over the 4096 columns is the sum, over the four runs, of the sums over each run's 1024 columns. -/
theorem sum_runs {M : Type*} [AddCommMonoid M] (F : Fin 4096 → M) :
    ∑ j : Fin 4096, F j = ∑ q : Fin 4, ∑ k : Fin 1024, F (col q k) := by
  rw [← Equiv.sum_comp colEquiv F, Fintype.sum_prod_type]
  rfl

/-- The two orders agree. -/
theorem outBlocked_eq (adj : A3.Idx → EReal) (hid : T3.Idx → EReal) (bias : B1.Idx → EReal) :
    outBlocked adj hid (fun j => bias (ix1 (j 1))) = outOf adj hid bias := by
  funext i
  show ((((0 + part adj hid i 0) + part adj hid i 1) + part adj hid i 2) + part adj hid i 3) + bias (ix1 (i 2))
      = (∑ j : Fin 4096, adj (ix3 (i 0) (i 1) j) * hid (ix3 (i 0) j (i 2))) + bias (ix1 (i 2))
  rw [zero_add, sum_runs (fun j => adj (ix3 (i 0) (i 1) j) * hid (ix3 (i 0) j (i 2))), Fin.sum_univ_four]
  rfl

end Cert.Spec

end
-- ==== Proof.KernelIdeal.Values.lean ====
/-
  The result array of the idealized kernel, as a function of the four arguments. The second pallas_call finds adj as
  launched, the hidden array as the first call left it, and the bias as a [1,64] row (the host reshape of the bias
  vector); so, given what each call leaves in its result array as a function of what it finds (`h0`, `h1`), the result
  is the specification's function of the arguments: the kernel's order of summation agrees with the reference's.
-/
import proofs.«140175_j14156212208279_1_alg».proof.Proof.KernelIdeal.Run
import proofs.«140175_j14156212208279_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ) (ρ : Dev nD → PrngReg)

/-- The second call finds adj as launched. -/
theorem Vr2_main_arg1 (c : Dev nD) : Vr2 m c main_arg1 = m ((c : Thread nD τ).loc main_arg1) := W2_main_arg1 m c

/-- The host reshape does not write the hidden array, so the second call finds what the first call left in it. -/
theorem Vr2_main_v0 (c : Dev nD) : Vr2 m c main_v0 = (dat0 (Vr0 m) c).arrAt 2 cfg0.N :=
  calc W2 m c (Proc.devRef .tc main_v0)
    _ = W1 m c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (Vr0 m) c).arrAt 2 cfg0.N := W1_arr m c 2

/-- The bias row the second call finds: entry (0, o) is bias[o]. -/
theorem Vr2_main_v1 (c : Dev nD) :
    (Vr2 m c main_v1 : S1x64.Idx → EReal) = fun j => m ((c : Thread nD τ).loc main_arg3) (ix1 (j 1)) := by
  have e : (Vr2 m c main_v1 : S1x64.Idx → EReal) = shapeCast S1x64 (W1 m c (Proc.devRef .tc main_arg3)) shapeCasts_S64_S1x64 := by
    show StableHlo.after hostOps1 (W1 m c) (Proc.devRef .tc main_v1) = _
    after_results
    rfl
  rw [e, W1_of_ne m c main_arg3 (by decide)]
  funext j
  refine (shapeCast_addUnit_apply ![64] _ _ j).trans ?_
  show m ((c : Thread nD τ).loc main_arg3) _ = m ((c : Thread nD τ).loc main_arg3) _
  congr 1
  funext a
  match a with
  | ⟨0, _⟩ => rfl

variable (h0 : ∀ (V : (c : Dev nD) → (b : Ref sig .tc) → Buf (Elt Ideal) ((c : Thread nD τ).loc b)) (c : Dev nD),
      (dat0 (F := Ideal) V c).arrAt 2 cfg0.N = Cert.Spec.hidden (V c main_arg0) (V c main_arg2))
  (h1 : ∀ (V : (c : Dev nD) → (b : Ref sig .tc) → Buf (Elt Ideal) ((c : Thread nD τ).loc b)) (c : Dev nD),
      (dat1 (F := Ideal) V c).arrAt 3 cfg1.N = Cert.Spec.outBlocked (V c main_arg1) (V c main_v0) (V c main_v1))

include h0 h1 in
/-- The result array at the end of the run is the specification's function of the launch contents of the arguments. -/
theorem result_eq (c : Dev nD) :
    W3 m c (Proc.devRef .tc main_v2) = Cert.Spec.out (m ((c : Thread nD τ).loc main_arg0)) (m ((c : Thread nD τ).loc main_arg1))
      (m ((c : Thread nD τ).loc main_arg2)) (m ((c : Thread nD τ).loc main_arg3)) := by
  refine (W3_arr m c 3).trans ((h1 (Vr2 m) c).trans ?_)
  rw [Vr2_main_arg1, Vr2_main_v0, h0 (Vr0 m) c, Vr2_main_v1]
  exact Cert.Spec.outBlocked_eq _ _ _

include h0 h1 in
/-- The run, read: the result array at the specification's function of the arguments, the arguments unchanged. -/
theorem run_value : θ_run defs (onTc (τ := τ) (main (F := Ideal))) ⟨m, fun _ => 0, ρ⟩ (fun r => ∀ c : Dev nD,
      r.2.mem ((c.tc : Thread nD τ).loc main_v2) = Cert.Spec.out (m ((c : Thread nD τ).loc main_arg0)) (m ((c : Thread nD τ).loc main_arg1))
        (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (result_eq m h0 h1 c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.KernelIdeal.Hand

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.KernelIdeal.Value0.lean ====
/-
  What the first pallas_call leaves in its result array, at the ideal values:

      hidden[b, l, o] = Σ_f text[b, l, f] · weight[f, o].

  The body's one store is the product of the text block, its unit batch axis dropped, with the weight matrix into a
  zero accumulator, the unit axis put back: at block index (0, l, o) it is the sum over f of the text block at (0, l, f)
  times the weight block at (f, o); the narrowings to bf16 are the identity at the ideal values. At grid point t the
  text and hidden blocks are batch row t of their arrays and the weight block is the whole matrix, so the block written
  back at t is batch row t of `hidden` of the two argument arrays; the eight blocks tile the [8,4096,64] array.
-/
import proofs.«140175_j14156212208279_1_alg».proof.Proof.KernelIdeal.Region0
import proofs.«140175_j14156212208279_1_alg».proof.Proof.Spec
import proofs.«140175_j14156212208279_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

theorem zero3 : (![0, 0, 0] : Fin 3 → Nat) = fun _ => 0 := funext fun a => by fin_cases a <;> rfl
theorem zero2 : (![0, 0] : Fin 2 → Nat) = fun _ => 0 := funext fun a => by fin_cases a <;> rfl

/-- Dropping the leading coordinate of (0, l, o) leaves (l, o). -/
theorem tail_ix3 (l : Fin 4096) (o : Fin 64) :
    (fun a : Fin 2 => (ix3 (0 : Fin 1) l o) a.succ) = ix2 l o :=
  funext fun a => by match a with | ⟨0, _⟩ => rfl | ⟨1, _⟩ => rfl

/-- Putting 0 in front of (l, f) gives (0, l, f). -/
theorem cons_ix2 (l : Fin 4096) (f : Fin 64) :
    (Fin.cons (⟨0, Nat.one_pos⟩ : Fin 1) (ix2 l f) : S1x4096x64.Idx) = ix3 0 l f :=
  funext fun a => by match a with | ⟨0, _⟩ => rfl | ⟨1, _⟩ => rfl | ⟨2, _⟩ => rfl

theorem out0_2_apply (x0 : Vec Ideal S1x4096x64 .f32) (x1 : Vec Ideal S64x64 .f32) (l : Fin 4096) (o : Fin 64) :
    out0_2 x0 x1 (ix3 0 l o) = ∑ f : Fin 64, x0 (ix3 0 l f) * x1 (ix2 f o) := by
  unfold out0_2
  rw [View.canon_unit_zero zero3]
  simp only [View.ld_unit_zero (S := S1x4096x64) zero3, View.ld_unit_zero (S := S64x64) zero2]
  unfold k0_pay1
  rw [shapeCast_addUnit_apply ![4096, 64], tail_ix3, truncf_apply,
    Cert.PlainDot.matmul_zero_apply (M := 4096) (K := 64) (N := 64) dot_S4096x64_S64x64_S4096x64_1_0_0_1_n_n rfl]
  refine Finset.sum_congr rfl fun f _ => ?_
  rw [truncf_apply, truncf_apply, shapeCast_dropUnit_apply ![4096, 64]]
  exact congrArg (fun k => x0 k * x1 (ix2 f o)) (cons_ix2 l f)

/-- The block product at a block index is the specification's `hidden` at the array index whose batch coordinate is `b`
    and whose other two coordinates are the block's, once the two blocks' entries are the arrays' entries there. -/
theorem out0_2_eq_hidden (x0 : Vec Ideal S1x4096x64 .f32) (x1 : Vec Ideal S64x64 .f32)
    (text : Cert.Spec.T3.Idx → EReal) (w : Cert.Spec.W2.Idx → EReal) (b : Fin 8)
    (h0 : ∀ (l : Fin 4096) (f : Fin 64), x0 (ix3 0 l f) = text (ix3 b l f))
    (h1 : ∀ (f o : Fin 64), x1 (ix2 f o) = w (ix2 f o))
    (y : S1x4096x64.Idx) (i : Cert.Spec.T3.Idx)
    (hi0 : (i 0).val = b.val) (hi1 : (i 1).val = (y 1).val) (hi2 : (i 2).val = (y 2).val) :
    out0_2 x0 x1 y = Cert.Spec.hidden text w i := by
  have e0 : y 0 = (0 : Fin 1) := Fin.ext (by have h : (y 0).val < 1 := (y 0).isLt; show (y 0).val = 0; omega)
  obtain ⟨l, o, rfl⟩ : ∃ (l : Fin 4096) (o : Fin 64), y = ix3 0 l o :=
    ⟨y 1, y 2, (eq_ix3 y).trans (congrArg (fun a => ix3 a (y 1) (y 2)) e0)⟩
  obtain rfl : i = ix3 b l o := funext fun a => Fin.ext (by
    match a with
    | ⟨0, _⟩ => exact hi0
    | ⟨1, _⟩ => exact hi1
    | ⟨2, _⟩ => exact hi2)
  rw [out0_2_apply]
  unfold Cert.Spec.hidden
  refine Finset.sum_congr rfl fun f _ => ?_
  rw [h0, h1]

variable (V : (c : Dev nD) → (b : Ref sig .tc) → Buf (Elt Ideal) ((c : Thread nD τ).loc b))

/-- The printed index maps over the grid: the text and hidden windows sit at batch row `t`, the weight window at the origin. -/
theorem idx_facts0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The text block at point `t` is batch row `t` of the text array. -/
theorem iblk0_0_apply (c : Dev nD) (t : Fin cfg0.N) (ht : t.val < 8) (l : Fin 4096) (f : Fin 64) :
    (iblk0 V c 0 t : Vec Ideal S1x4096x64 .f32) (ix3 0 l f)
      = (V c main_arg0 : Cert.Spec.T3.Idx → EReal) (ix3 ⟨t.val, ht⟩ l f) := by
  obtain ⟨a0, a1, a2, -⟩ := idx_facts0 t
  unfold iblk0
  rw [View.read_apply]
  show V c main_arg0 (((cfg0.win 0).blk t).view.emb (ix3 0 l f)) = V c main_arg0 (ix3 ⟨t.val, ht⟩ l f)
  congr 1
  funext a
  apply Fin.ext
  match a with
  | ⟨0, _⟩ => show win0_0.index t (0 : Fin 3) * 1 + 1 * 0 = t.val; omega
  | ⟨1, _⟩ => show win0_0.index t (1 : Fin 3) * 4096 + 1 * l.val = l.val; omega
  | ⟨2, _⟩ => show win0_0.index t (2 : Fin 3) * 64 + 1 * f.val = f.val; omega

/-- The weight block at every point is the weight matrix. -/
theorem iblk0_1_apply (c : Dev nD) (t : Fin cfg0.N) (f o : Fin 64) :
    (iblk0 V c 1 t : Vec Ideal S64x64 .f32) (ix2 f o) = (V c main_arg2 : Cert.Spec.W2.Idx → EReal) (ix2 f o) := by
  obtain ⟨-, -, -, b0, b1, -⟩ := idx_facts0 t
  unfold iblk0
  rw [View.read_apply]
  show V c main_arg2 (((cfg0.win 1).blk t).view.emb (ix2 f o)) = V c main_arg2 (ix2 f o)
  congr 1
  funext a
  apply Fin.ext
  match a with
  | ⟨0, _⟩ => show win0_1.index t (0 : Fin 2) * 64 + 1 * f.val = f.val; omega
  | ⟨1, _⟩ => show win0_1.index t (1 : Fin 2) * 64 + 1 * o.val = o.val; omega

/-- What point `t` writes back is block `t` of `hidden` of the text and weight arrays as the region finds them. -/
theorem flushed0_eq (c : Dev nD) (t : Fin cfg0.N) :
    (dat0 (F := Ideal) V c).flushed 2 t
      = ((cfg0.win 2).blk t).view.read (Elt Ideal) (Cert.Spec.hidden (V c main_arg0) (V c main_arg2)) := by
  show (cfg0.win 2).cut (grid0.coords t) ((dat0 V c).after 2 t) = _
  rw [after0_2]
  obtain ⟨-, -, -, -, -, c0, c1, c2⟩ := idx_facts0 t
  have ht : t.val < 8 := lt_of_lt_of_eq t.isLt N_0
  funext y
  show out0_2 (iblk0 V c 0 t) (iblk0 V c 1 t) y
    = Cert.Spec.hidden (V c main_arg0) (V c main_arg2) (((cfg0.win 2).blk t).view.emb y)
  have hy0 : (y 0).val < 1 := (y 0).isLt
  refine out0_2_eq_hidden (iblk0 V c 0 t) (iblk0 V c 1 t) (V c main_arg0) (V c main_arg2) ⟨t.val, ht⟩
    (iblk0_0_apply V c t ht) (iblk0_1_apply V c t) y _ ?_ ?_ ?_
  · show win0_2.index t (0 : Fin 3) * 1 + 1 * (y 0).val = t.val; omega
  · show win0_2.index t (1 : Fin 3) * 4096 + 1 * (y 1).val = (y 1).val; omega
  · show win0_2.index t (2 : Fin 3) * 64 + 1 * (y 2).val = (y 2).val; omega

/-- An index of the hidden array is in point `t`'s block iff each coordinate is in the block's range on its axis. -/
theorem mem_blk0 (t : Fin cfg0.N) (i : S8x4096x64.Idx) :
    i ∈ ((cfg0.win 2).blk t).view.set ↔ ∀ a : Fin 3, win0_2.index t a * S1x4096x64.size a ≤ (i a).val
      ∧ (i a).val < win0_2.index t a * S1x4096x64.size a + S1x4096x64.size a := by
  show i ∈ ((View.whole main_v0).slice (win0_2.rect t)).set ↔ _
  rw [View.set_slice_whole, Rect.mem_set_unit]
  exact Iff.rfl

/-- Every index of the hidden array is in the block of the point numbered by its batch coordinate. -/
theorem cover0 (i : S8x4096x64.Idx) :
    ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 64 := (i 2).isLt
  obtain ⟨t, tv⟩ : ∃ t : Fin cfg0.N, t.val = (i 0).val := ⟨⟨(i 0).val, lt_of_lt_of_eq hi0 N_0.symm⟩, rfl⟩
  obtain ⟨-, -, -, -, -, c0, c1, c2⟩ := idx_facts0 t
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 4096 ≤ (i 1).val ∧ (i 1).val < win0_2.index t (1 : Fin 3) * 4096 + 4096; omega
  | ⟨2, _⟩ => show win0_2.index t (2 : Fin 3) * 64 ≤ (i 2).val ∧ (i 2).val < win0_2.index t (2 : Fin 3) * 64 + 64; omega

/-- The hidden array after the first call: `hidden` of the text and weight arrays as the region finds them. -/
theorem final0 (c : Dev nD) :
    (dat0 (F := Ideal) V c).arrAt 2 cfg0.N = Cert.Spec.hidden (V c main_arg0) (V c main_arg2) :=
  (dat0 V c).arrAt_eq_of_cover 2 _ (fun t _ => flushed0_eq V c t) cover0

end Cert.KernelIdeal.Hand

end
-- ==== Proof.KernelIdeal.Value1.lean ====
/-
  What the second kernel call of the program leaves in its result array, over the extended reals.

  The call runs over 64 grid points t = 8 b + 4 h + q (b < 8 the batch row, h < 2 the half of the 4096 output rows,
  q < 4 the run of 1024 columns of adj). At q = 0 the [2048,64] accumulator is reset to zero; at every point the
  product of the [2048,1024] block of adj with the [1024,64] block of hidden is added to it; at q = 3 the accumulator
  plus the bias row is stored into the output block (b, h). So the block stored at the last point of a run is

      ((((0 + P₀) + P₁) + P₂) + P₃) + bias row,     P_q (p, o) = Σ_{k < 1024} adj[b, 2048 h + p, 1024 q + k] · hidden[b, 1024 q + k, o],

  which is the specification's blocked sum read through the block's rectangle; the 16 storing points' blocks tile the
  [8,4096,64] result, so the array ends holding the blocked sum everywhere.

  The steps: each control case's stores, read back, are the body's arithmetic of the blocks the case read; the
  accumulator after a point is that arithmetic of the point's blocks and of what the point before left, so the stored
  block of a run's last point is a four-fold nesting; each arithmetic step read at an index; each input block read
  where it sits in its array; the write-back of a storing point; the cover.
-/
import proofs.«140175_j14156212208279_1_alg».proof.Proof.KernelIdeal.Region1
import proofs.«140175_j14156212208279_1_alg».proof.Proof.Spec
import proofs.«140175_j14156212208279_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

namespace Second

/-! ## What each case leaves, as the body's arithmetic of the blocks it read -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Where the accumulator is neither reset nor stored, it is left at what it held plus the block product. -/
theorem scratch_B (c : Dev nD) (i : grid1.Coords) (a3 : Memref sig .tc .vmem S1x2048x1024 .f32) (h3 : a3.IsWhole) (a4 : Memref sig .tc .vmem S1x1024x64 .bf16) (h4 : a4.IsWhole) (a5 : Memref sig .tc .vmem S1x64 .f32) (h5 : a5.IsWhole) (a6 : Memref sig .tc .vmem S1x2048x64 .f32) (h6 : a6.IsWhole) (a7 : Memref sig .tc .vmem S2048x64 .f32) (h7 : a7.IsWhole) (hc0 : ¬cond1_0 i) (hc1 : ¬cond1_1 i) (x0 : Vec F S1x2048x1024 .f32) (x1 : Vec F S1x1024x64 .bf16) (x2 : Vec F S1x64 .f32) (xs0 : Vec F S2048x64 .f32) :
    sout1_B_0 c i a3 h3 a4 h4 a5 h5 a6 h6 a7 h7 hc0 hc1 x0 x1 x2 xs0 = k1_pay2 x0 x1 xs0 := by
  unfold sout1_B_0
  rw [View.read_writes_eq_canon _ _ _ (scover1_B_0 c i a3 h3 a4 h4 a5 h5 a6 h6 a7 h7 hc0 hc1 x0 x1 x2 xs0)]
  unfold kernelRun1_B
  dsimp only
  sl_unfold_words
  rw [View.canon_unit_zero hz2]
  simp only [View.readAt_eq_ld, h3.read_unread, h4.read_unread, h7.read_unread, View.ld_unit_zero (S := S1x2048x1024) hz3,
    View.ld_unit_zero (S := S1x1024x64) hz3, View.ld_unit_zero (S := S2048x64) hz2]

/-- Where the accumulator is reset, it is left at the zero block plus the block product. -/
theorem scratch_A (c : Dev nD) (i : grid1.Coords) (a3 : Memref sig .tc .vmem S1x2048x1024 .f32) (h3 : a3.IsWhole) (a4 : Memref sig .tc .vmem S1x1024x64 .bf16) (h4 : a4.IsWhole) (a5 : Memref sig .tc .vmem S1x64 .f32) (h5 : a5.IsWhole) (a6 : Memref sig .tc .vmem S1x2048x64 .f32) (h6 : a6.IsWhole) (a7 : Memref sig .tc .vmem S2048x64 .f32) (h7 : a7.IsWhole) (hc0 : cond1_0 i) (hc1 : ¬cond1_1 i) (x0 : Vec F S1x2048x1024 .f32) (x1 : Vec F S1x1024x64 .bf16) (x2 : Vec F S1x64 .f32) :
    sout1_A_0 c i a3 h3 a4 h4 a5 h5 a6 h6 a7 h7 hc0 hc1 x0 x1 x2 = k1_pay2 x0 x1 (k1_pay1 (F := F)) := by
  unfold sout1_A_0
  rw [View.read_writes_eq_canon _ _ _ (scover1_A_0 c i a3 h3 a4 h4 a5 h5 a6 h6 a7 h7 hc0 hc1 x0 x1 x2)]
  unfold kernelRun1_A
  dsimp only
  sl_unfold_words
  rw [View.canon_cons_unit_zero (S := S2048x64) hz2, View.readCov_unit_zero (S := S2048x64) _ hz2]
  simp only [View.readAt_eq_ld, h3.read_unread, h4.read_unread, View.ld_unit_zero (S := S1x2048x1024) hz3,
    View.ld_unit_zero (S := S1x1024x64) hz3]

/-- Where the output is stored the accumulator is updated in the same way first. -/
theorem scratch_C (c : Dev nD) (i : grid1.Coords) (a3 : Memref sig .tc .vmem S1x2048x1024 .f32) (h3 : a3.IsWhole) (a4 : Memref sig .tc .vmem S1x1024x64 .bf16) (h4 : a4.IsWhole) (a5 : Memref sig .tc .vmem S1x64 .f32) (h5 : a5.IsWhole) (a6 : Memref sig .tc .vmem S1x2048x64 .f32) (h6 : a6.IsWhole) (a7 : Memref sig .tc .vmem S2048x64 .f32) (h7 : a7.IsWhole) (hc0 : ¬cond1_0 i) (hc1 : cond1_1 i) (x0 : Vec F S1x2048x1024 .f32) (x1 : Vec F S1x1024x64 .bf16) (x2 : Vec F S1x64 .f32) (xs0 : Vec F S2048x64 .f32) :
    sout1_C_0 c i a3 h3 a4 h4 a5 h5 a6 h6 a7 h7 hc0 hc1 x0 x1 x2 xs0 = k1_pay2 x0 x1 xs0 := by
  unfold sout1_C_0
  rw [View.read_writes_eq_canon _ _ _ (scover1_C_0 c i a3 h3 a4 h4 a5 h5 a6 h6 a7 h7 hc0 hc1 x0 x1 x2 xs0)]
  unfold kernelRun1_C
  dsimp only
  sl_unfold_words
  rw [View.canon_unit_zero hz2]
  simp only [View.readAt_eq_ld, h3.read_unread, h4.read_unread, h7.read_unread, View.ld_unit_zero (S := S1x2048x1024) hz3,
    View.ld_unit_zero (S := S1x1024x64) hz3, View.ld_unit_zero (S := S2048x64) hz2]

/-- And the output block is left at the updated accumulator plus the bias row. -/
theorem out_C (c : Dev nD) (i : grid1.Coords) (a3 : Memref sig .tc .vmem S1x2048x1024 .f32) (h3 : a3.IsWhole) (a4 : Memref sig .tc .vmem S1x1024x64 .bf16) (h4 : a4.IsWhole) (a5 : Memref sig .tc .vmem S1x64 .f32) (h5 : a5.IsWhole) (a6 : Memref sig .tc .vmem S1x2048x64 .f32) (h6 : a6.IsWhole) (a7 : Memref sig .tc .vmem S2048x64 .f32) (h7 : a7.IsWhole) (hc0 : ¬cond1_0 i) (hc1 : cond1_1 i) (x0 : Vec F S1x2048x1024 .f32) (x1 : Vec F S1x1024x64 .bf16) (x2 : Vec F S1x64 .f32) (xs0 : Vec F S2048x64 .f32) :
    out1_C_3 c i a3 h3 a4 h4 a5 h5 a6 h6 a7 h7 hc0 hc1 x0 x1 x2 xs0 = k1_pay3 (k1_pay2 x0 x1 xs0) x2 := by
  unfold out1_C_3
  rw [View.read_writes_eq_canon _ _ _ (cover1_C_3 c i a3 h3 a4 h4 a5 h5 a6 h6 a7 h7 hc0 hc1 x0 x1 x2 xs0)]
  unfold kernelRun1_C
  dsimp only
  sl_unfold_words
  rw [View.canon_unit_zero hz3]
  simp only [View.readAt_eq_ld, h3.read_unread, h4.read_unread, h5.read_unread, h7.read_unread, View.ld_unit_zero (S := S1x2048x1024) hz3,
    View.ld_unit_zero (S := S1x1024x64) hz3, View.ld_unit_zero (S := S2048x64) hz2, View.ld_unit_zero (S := S1x64) hz2,
    View.readCov_unit_zero (S := S2048x64) _ hz2]

end Pieces

/-! ## The accumulator from point to point, and the stored block after a run of four points -/

section Chain
variable {F : FTy → Type} [FloatOps F]
variable (V : (c : Dev nD) → (b : Ref sig .tc) → Buf (Elt F) ((c : Thread nD τ).loc b))

/-- The blocks of adj, of hidden and of the bias row that point `t` reads, at their literal shapes. -/
abbrev adjBlk (c : Dev nD) (t : Fin cfg1.N) : Vec F S1x2048x1024 .f32 := iblk1 V c 0 t
abbrev hidBlk (c : Dev nD) (t : Fin cfg1.N) : Vec F S1x1024x64 .bf16 := iblk1 V c 1 t
abbrev biasBlk (c : Dev nD) (t : Fin cfg1.N) : Vec F S1x64 .f32 := iblk1 V c 2 t

/-- The point before `t`. -/
abbrev prev (t : Fin cfg1.N) : Fin cfg1.N := ⟨t.val - 1, Nat.lt_of_le_of_lt (Nat.sub_le _ _) t.isLt⟩

/-- At the first point of a run of four the accumulator is left at zero plus that point's block product. -/
theorem scratch_reset (c : Dev nD) (t : Fin cfg1.N) (h0 : t.val % 4 = 0) :
    (outsAt1 V c t.val t.isLt).2 = k1_pay2 (adjBlk V c t) (hidBlk V c t) (k1_pay1 (F := F)) := by
  have h1 : ¬t.val % 4 = 3 := by omega
  rw [outsAt1_A V c t h0 h1]
  dsimp only
  exact scratch_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)

/-- At every other point it is left at what the point before left plus this point's block product. -/
theorem scratch_step (c : Dev nD) (t : Fin cfg1.N) (h0 : ¬t.val % 4 = 0) :
    (outsAt1 V c t.val t.isLt).2 = k1_pay2 (adjBlk V c t) (hidBlk V c t) (outsAt1 V c (prev t).val (prev t).isLt).2 := by
  by_cases h1 : t.val % 4 = 3
  · rw [outsAt1_C V c t h0 h1]
    dsimp only
    exact scratch_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h0 h1]
    dsimp only
    exact scratch_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

/-- At the last point of a run the output block is left at the updated accumulator plus the bias row. -/
theorem out_last (c : Dev nD) (t : Fin cfg1.N) (h1 : t.val % 4 = 3) :
    (outsAt1 V c t.val t.isLt).1
      = k1_pay3 (k1_pay2 (adjBlk V c t) (hidBlk V c t) (outsAt1 V c (prev t).val (prev t).isLt).2) (biasBlk V c t) := by
  have h0 : ¬t.val % 4 = 0 := by omega
  rw [outsAt1_C V c t h0 h1]
  dsimp only
  exact out_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2

/-- So the block stored at the last point of a run is the four block products of the run added one after another
    into the zero block, then the bias row. -/
theorem out_run (c : Dev nD) (t : Fin cfg1.N) (h : t.val % 4 = 3) :
    (outsAt1 V c t.val t.isLt).1
      = k1_pay3 (k1_pay2 (adjBlk V c t) (hidBlk V c t)
          (k1_pay2 (adjBlk V c (prev t)) (hidBlk V c (prev t))
            (k1_pay2 (adjBlk V c (prev (prev t))) (hidBlk V c (prev (prev t)))
              (k1_pay2 (adjBlk V c (prev (prev (prev t)))) (hidBlk V c (prev (prev (prev t)))) (k1_pay1 (F := F))))))
          (biasBlk V c t) := by
  have e1 : ¬(prev t).val % 4 = 0 := by dsimp only; omega
  have e2 : ¬(prev (prev t)).val % 4 = 0 := by dsimp only; omega
  have e3 : (prev (prev (prev t))).val % 4 = 0 := by dsimp only; omega
  rw [out_last V c t h, scratch_step V c (prev t) e1, scratch_step V c (prev (prev t)) e2,
    scratch_reset V c (prev (prev (prev t))) e3]

end Chain

/-! ## The body's arithmetic at an index, over the extended reals -/

section AtIndex

/-- The zero block reads 0. -/
theorem zero_apply (p : Fin 2048) (o : Fin 64) : k1_pay1 (F := Ideal) (ix2 p o) = 0 := by
  unfold k1_pay1
  rw [shapeCast_self]
  exact Ideal.ofBits_zero_f32

/-- The accumulator's update at (p, o): what it held plus the sum over the block's 1024 columns k of
    adj-block (p, k) times hidden-block (k, o). -/
theorem update_apply (x0 : Vec Ideal S1x2048x1024 .f32) (x1 : Vec Ideal S1x1024x64 .bf16) (xs : Vec Ideal S2048x64 .f32)
    (p : Fin 2048) (o : Fin 64) :
    k1_pay2 x0 x1 xs (ix2 p o) = xs (ix2 p o) + ∑ k : Fin 1024, x0 (ix3 0 p k) * x1 (ix3 0 k o) := by
  unfold k1_pay2
  rw [shapeCast_self]
  refine (addf_apply _ _ _).trans (congrArg (xs (ix2 p o) + ·) ?_)
  refine (Cert.PlainDot.matmul_zero_apply _ rfl none _ _ p o).trans (Finset.sum_congr rfl fun k _ => ?_)
  rw [truncf_apply, shapeCast_1ab_ab_apply, shapeCast_1ab_ab_apply]

/-- The stored block at (0, p, o): the accumulator at (p, o) plus the bias row at o. -/
theorem store_apply (a : Vec Ideal S2048x64 .f32) (x2 : Vec Ideal S1x64 .f32) (u : Fin 1) (p : Fin 2048) (o : Fin 64) :
    k1_pay3 a x2 (ix3 u p o) = a (ix2 p o) + x2 (ix2 0 o) := by
  unfold k1_pay3
  rw [shapeCast_ab_1ab_apply, addf_apply, broadcastTo_1b_ab_apply, shapeCast_self]

end AtIndex

/-! ## The blocks read where they sit in their arrays, and the whole result -/

section Array
variable (V : (c : Dev nD) → (b : Ref sig .tc) → Buf (Elt Ideal) ((c : Thread nD τ).loc b))

/-- adj, hidden, the bias row, and the result they determine, at their literal shapes. -/
abbrev adjArr (c : Dev nD) : Cert.Spec.A3.Idx → EReal := V c main_arg1
abbrev hidArr (c : Dev nD) : Cert.Spec.T3.Idx → EReal := V c main_v0
abbrev rowArr (c : Dev nD) : Cert.Spec.R2.Idx → EReal := V c main_v1
abbrev outArr (c : Dev nD) : Cert.Spec.T3.Idx → EReal := Cert.Spec.outBlocked (adjArr V c) (hidArr V c) (rowArr V c)

/-- Grid point t = 8 b + 4 h + q has batch row b = t / 8, half h = (t / 4) % 2 of the output rows and run q = t % 4 of
    the columns; each window's block index at t in those terms, decided once over the 64 points. -/
theorem point_blocks : ∀ t : Fin cfg1.N,
    win1_0.index t (0 : Fin 3) = t.val / 8 ∧ win1_0.index t (1 : Fin 3) = t.val / 4 % 2 ∧ win1_0.index t (2 : Fin 3) = t.val % 4
    ∧ win1_1.index t (0 : Fin 3) = t.val / 8 ∧ win1_1.index t (1 : Fin 3) = t.val % 4 ∧ win1_1.index t (2 : Fin 3) = 0
    ∧ win1_2.index t (0 : Fin 2) = 0 ∧ win1_2.index t (1 : Fin 2) = 0
    ∧ win1_3.index t (0 : Fin 3) = t.val / 8 ∧ win1_3.index t (1 : Fin 3) = t.val / 4 % 2 ∧ win1_3.index t (2 : Fin 3) = 0 :=
  (by decide +kernel : ∀ t : Fin grid1.N, _)

/-- The adj block of point t at (0, p, k) is adj at (b, 2048 h + p, 1024 q + k). -/
theorem adjBlk_apply (c : Dev nD) (t : Fin cfg1.N) (u : Fin 1) (p : Fin 2048) (k : Fin 1024) (i : Cert.Spec.A3.Idx)
    (h0 : (i 0).val = t.val / 8) (h1 : (i 1).val = 2048 * (t.val / 4 % 2) + p.val) (h2 : (i 2).val = 1024 * (t.val % 4) + k.val) :
    adjBlk V c t (ix3 u p k) = adjArr V c i := by
  obtain ⟨e0, e1, e2, -⟩ := point_blocks t
  have hu := u.isLt
  show iblk1 V c 0 t (ix3 u p k) = _
  unfold iblk1
  rw [View.read_apply]
  show V c main_arg1 _ = V c main_arg1 i
  congr 1
  funext a
  apply Fin.ext
  match a with
  | ⟨0, _⟩ => show win1_0.index t (0 : Fin 3) * 1 + 1 * u.val = (i 0).val; omega
  | ⟨1, _⟩ => show win1_0.index t (1 : Fin 3) * 2048 + 1 * p.val = (i 1).val; omega
  | ⟨2, _⟩ => show win1_0.index t (2 : Fin 3) * 1024 + 1 * k.val = (i 2).val; omega

/-- The hidden block of point t at (0, k, o) is hidden at (b, 1024 q + k, o). -/
theorem hidBlk_apply (c : Dev nD) (t : Fin cfg1.N) (u : Fin 1) (k : Fin 1024) (o : Fin 64) (i : Cert.Spec.T3.Idx)
    (h0 : (i 0).val = t.val / 8) (h1 : (i 1).val = 1024 * (t.val % 4) + k.val) (h2 : (i 2).val = o.val) :
    hidBlk V c t (ix3 u k o) = hidArr V c i := by
  obtain ⟨-, -, -, e0, e1, e2, -⟩ := point_blocks t
  have hu := u.isLt
  show iblk1 V c 1 t (ix3 u k o) = _
  unfold iblk1
  rw [View.read_apply]
  show V c main_v0 _ = V c main_v0 i
  congr 1
  funext a
  apply Fin.ext
  match a with
  | ⟨0, _⟩ => show win1_1.index t (0 : Fin 3) * 1 + 1 * u.val = (i 0).val; omega
  | ⟨1, _⟩ => show win1_1.index t (1 : Fin 3) * 1024 + 1 * k.val = (i 1).val; omega
  | ⟨2, _⟩ => show win1_1.index t (2 : Fin 3) * 64 + 1 * o.val = (i 2).val; omega

/-- The bias-row block of every point is the bias row. -/
theorem biasBlk_apply (c : Dev nD) (t : Fin cfg1.N) (u : Fin 1) (o : Fin 64) (i : Cert.Spec.R2.Idx)
    (h0 : (i 0).val = 0) (h1 : (i 1).val = o.val) :
    biasBlk V c t (ix2 u o) = rowArr V c i := by
  obtain ⟨-, -, -, -, -, -, e0, e1, -⟩ := point_blocks t
  have hu := u.isLt
  show iblk1 V c 2 t (ix2 u o) = _
  unfold iblk1
  rw [View.read_apply]
  show V c main_v1 _ = V c main_v1 i
  congr 1
  funext a
  apply Fin.ext
  match a with
  | ⟨0, _⟩ => show win1_2.index t (0 : Fin 2) * 1 + 1 * u.val = (i 0).val; omega
  | ⟨1, _⟩ => show win1_2.index t (1 : Fin 2) * 64 + 1 * o.val = (i 1).val; omega

/-- The block product of a point s in run q of the columns, at (p, o), is the q-th partial sum of the result's
    position (b, 2048 h + p, o). -/
theorem block_product (c : Dev nD) (s : Fin cfg1.N) (q : Fin 4) (hq : s.val % 4 = q.val) (p : Fin 2048) (o : Fin 64)
    (i : Cert.Spec.T3.Idx) (h0 : (i 0).val = s.val / 8) (h1 : (i 1).val = 2048 * (s.val / 4 % 2) + p.val) (h2 : (i 2).val = o.val) :
    ∑ k : Fin 1024, adjBlk V c s (ix3 0 p k) * hidBlk V c s (ix3 0 k o) = Cert.Spec.part (adjArr V c) (hidArr V c) i q := by
  unfold Cert.Spec.part
  refine Finset.sum_congr rfl fun k _ => ?_
  rw [adjBlk_apply V c s 0 p k (ix3 (i 0) (i 1) (Cert.Spec.col q k)) h0 h1 (by show 1024 * q.val + k.val = _; omega),
    hidBlk_apply V c s 0 k o (ix3 (i 0) (Cert.Spec.col q k) (i 2)) h0 (by show 1024 * q.val + k.val = _; omega) h2]

/-- What the last point t of a run stores at block position y is the result at the array position y sits at. -/
theorem run_value (c : Dev nD) (t : Fin cfg1.N) (h : t.val % 4 = 3) (y : S1x2048x64.Idx) (i : Cert.Spec.T3.Idx)
    (h0 : (i 0).val = t.val / 8) (h1 : (i 1).val = 2048 * (t.val / 4 % 2) + (y 1).val) (h2 : (i 2).val = (y 2).val) :
    (outsAt1 V c t.val t.isLt).1 y = outArr V c i := by
  obtain ⟨u, p, o, rfl⟩ : ∃ (u : Fin 1) (p : Fin 2048) (o : Fin 64), y = ix3 u p o := ⟨y 0, y 1, y 2, eq_ix3 y⟩
  replace h1 : (i 1).val = 2048 * (t.val / 4 % 2) + p.val := h1
  replace h2 : (i 2).val = o.val := h2
  rw [out_run V c t h, store_apply, update_apply, update_apply, update_apply, update_apply, zero_apply]
  rw [block_product V c t 3 (by show _ = 3; omega) p o i h0 h1 h2,
    block_product V c (prev t) 2 (by show (t.val - 1) % 4 = 2; omega) p o i (by show _ = (t.val - 1) / 8; omega)
      (by show _ = 2048 * ((t.val - 1) / 4 % 2) + p.val; omega) h2,
    block_product V c (prev (prev t)) 1 (by show (t.val - 1 - 1) % 4 = 1; omega) p o i (by show _ = (t.val - 1 - 1) / 8; omega)
      (by show _ = 2048 * ((t.val - 1 - 1) / 4 % 2) + p.val; omega) h2,
    block_product V c (prev (prev (prev t))) 0 (by show (t.val - 1 - 1 - 1) % 4 = 0; omega) p o i
      (by show _ = (t.val - 1 - 1 - 1) / 8; omega) (by show _ = 2048 * ((t.val - 1 - 1 - 1) / 4 % 2) + p.val; omega) h2,
    biasBlk_apply V c t 0 o (ix2 0 (i 2)) rfl h2]
  rfl

/-- What a storing point writes back is its block of the result. -/
theorem flushed_eq (c : Dev nD) (t : Fin cfg1.N) (hf : (cfg1.win 3).flush t = true) :
    (dat1 V c).flushed 3 t = ((cfg1.win 3).blk t).view.read (Elt Ideal) (outArr V c) := by
  have h3 : t.val % 4 = 3 := (flush1_3 t).mp hf
  obtain ⟨-, -, -, -, -, -, -, -, e0, e1, e2⟩ := point_blocks t
  show (cfg1.win 3).cut (grid1.coords t) ((dat1 V c).after 3 t) = _
  rw [after1_3]
  funext y
  show (outsAt1 V c t.val t.isLt).1 y = outArr V c (((cfg1.win 3).blk t).view.emb y)
  have hy0 : (y 0).val < 1 := (y 0).isLt
  refine run_value V c t h3 y _ ?_ ?_ ?_
  · show win1_3.index t (0 : Fin 3) * 1 + 1 * (y 0).val = t.val / 8; omega
  · show win1_3.index t (1 : Fin 3) * 2048 + 1 * (y 1).val = 2048 * (t.val / 4 % 2) + (y 1).val; omega
  · show win1_3.index t (2 : Fin 3) * 64 + 1 * (y 2).val = (y 2).val; omega

/-- Every position (b, r, o) of the result lies in the block of the storing point 8 b + 4 (r / 2048) + 3. -/
theorem covered (i : Cert.Spec.T3.Idx) :
    ∃ t : Fin cfg1.N, (cfg1.win 3).flush t = true ∧ i ∈ ((cfg1.win 3).blk t).view.set := by
  have hi0 : (i 0).val < 8 := (i 0).isLt
  have hi1 : (i 1).val < 4096 := (i 1).isLt
  have hi2 : (i 2).val < 64 := (i 2).isLt
  have hN : cfg1.N = 64 := N_1
  let t : Fin cfg1.N := ⟨8 * (i 0).val + 4 * ((i 1).val / 2048) + 3, by rw [hN]; omega⟩
  have ht : t.val = 8 * (i 0).val + 4 * ((i 1).val / 2048) + 3 := rfl
  obtain ⟨-, -, -, -, -, -, -, -, e0, e1, e2⟩ := point_blocks t
  refine ⟨t, (flush1_3 t).mpr (by rw [ht]; omega), ?_⟩
  show i ∈ ((View.whole main_v2).slice (win1_3.rect t)).set
  rw [View.set_slice_whole, Rect.mem_set_unit]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 2048 ≤ (i 1).val ∧ (i 1).val < win1_3.index t (1 : Fin 3) * 2048 + 2048
    omega
  | ⟨2, _⟩ =>
    show win1_3.index t (2 : Fin 3) * 64 ≤ (i 2).val ∧ (i 2).val < win1_3.index t (2 : Fin 3) * 64 + 64
    omega

/-- So the result array ends holding the blocked sum. -/
theorem result (c : Dev nD) :
    (dat1 (F := Ideal) V c).arrAt 3 cfg1.N = Cert.Spec.outBlocked (V c main_arg1) (V c main_v0) (V c main_v1) :=
  (dat1 V c).arrAt_eq_of_cover 3 (outArr V c) (flushed_eq V c) (fun i => covered i)

end Array

end Second

/-- The second call leaves its result array at the blocked sum of adj, hidden and the bias row. -/
theorem final1 (V : (c : Dev nD) → (b : Ref sig .tc) → Buf (Elt Ideal) ((c : Thread nD τ).loc b)) (c : Dev nD) :
    (dat1 (F := Ideal) V c).arrAt 3 cfg1.N = Cert.Spec.outBlocked (V c main_arg1) (V c main_v0) (V c main_v1) :=
  Second.result V c

end Cert.KernelIdeal.Hand

end
-- ==== Proof.RefValue.lean ====
import proofs.«140175_j14156212208279_1_alg».proof.Defs
import proofs.«140175_j14156212208279_1_alg».proof.Proof.Gen.ReferenceIdeal.Run
import proofs.«140175_j14156212208279_1_alg».proof.Proof.Gen.ReferenceIdeal.Read
import proofs.«140175_j14156212208279_1_alg».proof.Proof.Spec

/-
  The reference program's result, read at an index, is the specification's `out`:

      (adj @ (text @ weight) + bias)[b, r, o] = (Σ_j adj[b, r, j] · (Σ_f text[b, j, f] · weight[f, o])) + bias[o].

  The outer product contracts adj's last axis with the middle axis of the inner product, batched over the first axis;
  the inner product contracts text's last axis with weight's first; the bias is broadcast along the last axis through
  a [1,1,64] array. Each operation is read at one index from its operands at the indices the generated module
  computes, and those index functions are the coordinate triples, pairs and singletons of the specification.
-/

noncomputable section

namespace Cert.ReferenceIdeal.RefValue

open Cert.ReferenceIdeal Cert.ReferenceIdeal.Gen
open Idealize.ShloMosaic Idealize.ShloMosaic.ValueIdx
open scoped BigOperators

/-- The outer product reads adj at (b, r, k) … -/
theorem lidx_v1 (b : Fin 8) (r : Fin 4096) (o : Fin 64) (k : Fin 4096) :
    Read.lidx_main_v1 (ix3 b r o) k = ix3 b r k := by
  funext a; match a with | ⟨0, _⟩ => rfl | ⟨1, _⟩ => rfl | ⟨2, _⟩ => rfl

/-- … and the inner product's result at (b, k, o). -/
theorem ridx_v1 (b : Fin 8) (r : Fin 4096) (o : Fin 64) (k : Fin 4096) :
    Read.ridx_main_v1 (ix3 b r o) k = ix3 b k o := by
  funext a; match a with | ⟨0, _⟩ => rfl | ⟨1, _⟩ => rfl | ⟨2, _⟩ => rfl

/-- The inner product reads text at (b, l, f) … -/
theorem lidx_v0 (b : Fin 8) (l : Fin 4096) (o : Fin 64) (f : Fin 64) :
    Read.lidx_main_v0 (ix3 b l o) f = ix3 b l f := by
  funext a; match a with | ⟨0, _⟩ => rfl | ⟨1, _⟩ => rfl | ⟨2, _⟩ => rfl

/-- … and weight at (f, o). -/
theorem ridx_v0 (b : Fin 8) (l : Fin 4096) (o : Fin 64) (f : Fin 64) :
    Read.ridx_main_v0 (ix3 b l o) f = ix2 f o := by
  funext a; match a with | ⟨0, _⟩ => rfl | ⟨1, _⟩ => rfl

/-- The two broadcasts read the bias at o. -/
theorem idx_v2_v3 (b : Fin 8) (r : Fin 4096) (o : Fin 64) :
    Read.idx_main_v2 (Read.idx_main_v3 (ix3 b r o)) = ix1 o := by
  funext a; match a with | ⟨0, _⟩ => rfl

/-- The reference's result is the specification's `out`. -/
theorem result_eq (text : FVec Ideal S8x4096x64 .f32) (adj : FVec Ideal S8x4096x4096 .f32) (w : FVec Ideal S64x64 .f32) (bias : FVec Ideal S64 .f32) :
    addf (Host.dotGeneral dot_S8x4096x4096_S8x4096x64_S8x4096x64_2_1_1_2_0_0 none adj (Host.dotGeneral dot_S8x4096x64_S64x64_S8x4096x64_2_0_01_1_n_n none text w)) (broadcastInDim S8x4096x64 ![0, 1, 2] bcast_S1x1x64_S8x4096x64_0_1_2 (broadcastInDim S1x1x64 ![2] bcast_S64_S1x1x64_2 bias))
      = Cert.Spec.out text adj w bias := by
  refine (Read.val_main_v4_eq (F := Ideal) text adj w bias).trans ?_
  funext i
  obtain ⟨b, r, o, rfl⟩ : ∃ b r o, i = ix3 b r o := ⟨i 0, i 1, i 2, eq_ix3 i⟩
  rw [Read.val_main_v4_apply, Read.val_main_v1_apply, Read.val_main_v3_apply, Read.val_main_v2_apply, idx_v2_v3,
    Ideal.addf_def]
  show _ = (∑ j : Fin 4096, adj (ix3 b r j) * Cert.Spec.hidden text w (ix3 b j o)) + bias (ix1 o)
  refine congrArg (· + bias (ix1 o)) (Finset.sum_congr rfl fun k _ => ?_)
  rw [lidx_v1, ridx_v1, Read.val_main_v0_apply]
  show _ = adj (ix3 b r k) * ∑ f : Fin 64, text (ix3 b k f) * w (ix2 f o)
  refine congrArg (adj (ix3 b r k) * ·) (Finset.sum_congr rfl fun f _ => ?_)
  rw [lidx_v0, ridx_v0]

end Cert.ReferenceIdeal.RefValue

end
-- ==== Proof.lean ====
/-
  The certificate of a graph-convolution layer: out = adj · (text · weight) + bias over text : [8,4096,64],
  adj : [8,4096,4096], weight : [64,64], bias : [64].

  The kernel is two pallas_calls with a host reshape of the bias between them. The first writes
  hidden = text · weight, one batch row per grid point. The second walks a grid (batch, row half, column quarter): at
  each point it multiplies a [2048,1024] block of adj with the matching [1024,64] block of hidden and adds the product
  to a scratch accumulator, which it resets at the first column quarter; at the last quarter it stores the accumulator
  plus the bias row as the output block of that batch and row half.

  Frames. Each pallas_call's body is run once per control case; what its buffers hold after each grid point is named
  by recursion on the point, the accumulator carried in the region's invariant; @main is then the chain of the two
  regions and the reshape, every unscoped buffer held at named contents between them, and the arguments are read
  back unchanged at the end. The same text serves the word-level program and its idealization.

  Values, at the ideal instance (a float an extended real, every operation exact, a change of float format the
  identity). The first call leaves hidden[b,l,o] = Σ_f text[b,l,f]·weight[f,o]. The second leaves, at (b,r,o),
  ((((0 + P₀) + P₁) + P₂) + P₃) + bias[o] with P_q the partial sum over the q-th run of 1024 columns of
  adj[b,r,·]·hidden[b,·,o]. The reference computes Σ_j adj[b,r,j]·hidden[b,j,o] + bias[o] with the same hidden. The two
  agree because addition of extended reals is associative and commutative with neutral zero: the precondition is
  never opened. The ideal pass rewrote nothing, so the preservation conjunct is trivial.
-/
import proofs.«140175_j14156212208279_1_alg».proof.Defs
import proofs.«140175_j14156212208279_1_alg».proof.Proof.Gen.Kernel
import proofs.«140175_j14156212208279_1_alg».proof.Proof.Gen.KernelIdeal
import proofs.«140175_j14156212208279_1_alg».proof.Proof.Gen.ReferenceIdeal
import proofs.«140175_j14156212208279_1_alg».proof.Proof.Gen.Pre_finite_inputs
import proofs.«140175_j14156212208279_1_alg».proof.Proof.Kernel.Run
import proofs.«140175_j14156212208279_1_alg».proof.Proof.KernelIdeal.Values
import proofs.«140175_j14156212208279_1_alg».proof.Proof.KernelIdeal.Value0
import proofs.«140175_j14156212208279_1_alg».proof.Proof.KernelIdeal.Value1
import proofs.«140175_j14156212208279_1_alg».proof.Proof.RefValue

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at the specification's function of the arguments. -/
theorem algebraic : Cert.algebraic_KernelIdeal_ReferenceIdeal := by
  intro m ρ m' ρ' _ hagree
  refine ⟨_, Cert.KernelIdeal.Hand.run_value m ρ Cert.KernelIdeal.Hand.final0 Cert.KernelIdeal.Hand.final1, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.ReferenceIdeal.RefValue.result_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
